-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x3 : Shape := ⟨3, ![8192, 32, 3]⟩
abbrev S8192x32x1 : Shape := ⟨3, ![8192, 32, 1]⟩
abbrev S8192x192 : Shape := ⟨2, ![8192, 192]⟩
abbrev S_ : Shape := ⟨0, ![]⟩

class Facts : Prop where
  bcast_S_S8192x32x3 : S_.BroadcastsInDim S8192x32x3 (![] : Fin 0 → Fin S8192x32x3.rank)
  reducesTo_S8192x32x3_S_d0_1_2 : S8192x32x3.ReducesTo [0, 1, 2] S_
  h_S_ : 0 < S_.numel
  bcast_S_S8192x32x1 : S_.BroadcastsInDim S8192x32x1 (![] : Fin 0 → Fin S8192x32x1.rank)
  reducesTo_S8192x32x1_S_d0_1_2 : S8192x32x1.ReducesTo [0, 1, 2] S_
  bcast_S_S8192x192 : S_.BroadcastsInDim S8192x192 (![] : Fin 0 → Fin S8192x192.rank)
  reducesTo_S8192x192_S_d0_1 : S8192x192.ReducesTo [0, 1] S_

variable [Facts]

def fn {F : FTy → Type} [FloatOps F] (main_arg0 : FVec F S8192x32x3 .f32) (main_arg1 : FVec F S8192x32x1 .f32) (main_arg2 : FVec F S8192x192 .f32) : IVec S_ 1 :=
  let main_v0 : FVec F S8192x32x3 .f32 := Host.absf main_arg0
  let main_cst : FVec F S_ .f32 := constant S_ .f32 0x7F800000#32
  let main_v1 : FVec F S8192x32x3 .f32 := broadcastInDim S8192x32x3 ![] bcast_S_S8192x32x3 main_cst
  let main_v2 : IVec S8192x32x3 1 := cmpf .olt main_v0 main_v1
  let main_c : IVec S_ 1 := constantI S_ 1 1#1
  let main_v3 : IVec S_ 1 := (fun x v => Host.reduce IntOp.andi x v reducesTo_S8192x32x3_S_d0_1_2 h_S_) main_v2 main_c
  let main_v4 : FVec F S8192x32x1 .f32 := Host.absf main_arg1
  let main_cst_0 : FVec F S_ .f32 := constant S_ .f32 0x7F800000#32
  let main_v5 : FVec F S8192x32x1 .f32 := broadcastInDim S8192x32x1 ![] bcast_S_S8192x32x1 main_cst_0
  let main_v6 : IVec S8192x32x1 1 := cmpf .olt main_v4 main_v5
  let main_c_1 : IVec S_ 1 := constantI S_ 1 1#1
  let main_v7 : IVec S_ 1 := (fun x v => Host.reduce IntOp.andi x v reducesTo_S8192x32x1_S_d0_1_2 h_S_) main_v6 main_c_1
  let main_v8 : IVec S_ 1 := andi main_v3 main_v7
  let main_v9 : FVec F S8192x192 .f32 := Host.absf main_arg2
  let main_cst_2 : FVec F S_ .f32 := constant S_ .f32 0x7F800000#32
  let main_v10 : FVec F S8192x192 .f32 := broadcastInDim S8192x192 ![] bcast_S_S8192x192 main_cst_2
  let main_v11 : IVec S8192x192 1 := cmpf .olt main_v9 main_v10
  let main_c_3 : IVec S_ 1 := constantI S_ 1 1#1
  let main_v12 : IVec S_ 1 := (fun x v => Host.reduce IntOp.andi x v reducesTo_S8192x192_S_d0_1 h_S_) main_v11 main_c_3
  let main_v13 : IVec S_ 1 := andi main_v8 main_v12
  main_v13
-- ==== Kernel.lean ====
abbrev S8192x32x3 : Shape := ⟨3, ![8192, 32, 3]⟩
abbrev S8192x32x1 : Shape := ⟨3, ![8192, 32, 1]⟩
abbrev S8192x192 : Shape := ⟨2, ![8192, 192]⟩
abbrev S1x128 : Shape := ⟨2, ![1, 128]⟩
abbrev S8192x192x3 : Shape := ⟨3, ![8192, 192, 3]⟩
abbrev S256x32x3 : Shape := ⟨3, ![256, 32, 3]⟩
abbrev S256x32x1 : Shape := ⟨3, ![256, 32, 1]⟩
abbrev S256x192 : Shape := ⟨2, ![256, 192]⟩
abbrev S256x192x3 : Shape := ⟨3, ![256, 192, 3]⟩
abbrev S256x192x1 : Shape := ⟨3, ![256, 192, 1]⟩
abbrev S128 : Shape := ⟨1, ![128]⟩
abbrev S35 : Shape := ⟨1, ![35]⟩
abbrev S1x1x35 : Shape := ⟨3, ![1, 1, 35]⟩
abbrev S256x192x35 : Shape := ⟨3, ![256, 192, 35]⟩
abbrev S34 : Shape := ⟨1, ![34]⟩
abbrev S1x1x34 : Shape := ⟨3, ![1, 1, 34]⟩
abbrev S256x192x34 : Shape := ⟨3, ![256, 192, 34]⟩
abbrev S33 : Shape := ⟨1, ![33]⟩
abbrev S1x1x33 : Shape := ⟨3, ![1, 1, 33]⟩
abbrev S256x192x33 : Shape := ⟨3, ![256, 192, 33]⟩
abbrev S32 : Shape := ⟨1, ![32]⟩
abbrev S1x1x32 : Shape := ⟨3, ![1, 1, 32]⟩
abbrev S256x192x32 : Shape := ⟨3, ![256, 192, 32]⟩
abbrev S8192x192x3x1 : Shape := ⟨4, ![8192, 192, 3, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x32x3, .f32⟩
  | .hbm, ⟨1, _⟩ => ⟨S8192x32x1, .f32⟩
  | .hbm, ⟨2, _⟩ => ⟨S8192x192, .f32⟩
  | .hbm, ⟨3, _⟩ => ⟨S1x128, .f32⟩
  | .hbm, ⟨4, _⟩ => ⟨S8192x192x3, .f32⟩
  | .hbm, ⟨5, _⟩ => ⟨S8192x192x3x1, .f32⟩
  | .local _ .vmem, ⟨0, _⟩ => ⟨S256x32x3, .f32⟩
  | .local _ .vmem, ⟨1, _⟩ => ⟨S256x32x3, .f32⟩
  | .local _ .vmem, ⟨2, _⟩ => ⟨S256x32x1, .f32⟩
  | .local _ .vmem, ⟨3, _⟩ => ⟨S256x32x1, .f32⟩
  | .local _ .vmem, ⟨4, _⟩ => ⟨S256x192, .f32⟩
  | .local _ .vmem, ⟨5, _⟩ => ⟨S256x192, .f32⟩
  | .local _ .vmem, ⟨6, _⟩ => ⟨S1x128, .f32⟩
  | .local _ .vmem, ⟨7, _⟩ => ⟨S256x192x3, .f32⟩
  | .local _ .vmem, ⟨8, _⟩ => ⟨S256x192x3, .f32⟩
  | _, _ => ⟨S8192x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x192x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x192_S256x192_0_0 : ∀ a, (![0, 0] : Fin 2 → Nat) a + S256x192.size a ≤ S256x192.size a
  h_S256x192 : 0 < S256x192.numel
  shapeCasts_S256x192_S256x192x1 : S256x192.ShapeCasts S256x192x1
  inb_S1x128_S1x128_0_0 : ∀ a, (![0, 0] : Fin 2 → Nat) a + S1x128.size a ≤ S1x128.size a
  h_S1x128 : 0 < S1x128.numel
  shapeCasts_S1x128_S128 : S1x128.ShapeCasts S128
  slices_S128_o0_S35 : S128.Slices ![0] S35
  shapeCasts_S35_S1x1x35 : S35.ShapeCasts S1x1x35
  broadcasts_S1x1x35_S256x192x35 : S1x1x35.Broadcasts S256x192x35
  broadcasts_S256x192x1_S256x192x35 : S256x192x1.Broadcasts S256x192x35
  slices_S128_o1_S35 : S128.Slices ![1] S35
  natLt_1_32 : 1 < 32
  slices_S128_o0_S34 : S128.Slices ![0] S34
  shapeCasts_S34_S1x1x34 : S34.ShapeCasts S1x1x34
  broadcasts_S256x192x1_S256x192x34 : S256x192x1.Broadcasts S256x192x34
  broadcasts_S1x1x34_S256x192x34 : S1x1x34.Broadcasts S256x192x34
  slices_S128_o1_S34 : S128.Slices ![1] S34
  slices_S256x192x35_o0_0_0_S256x192x34 : S256x192x35.Slices ![0, 0, 0] S256x192x34
  slices_S128_o2_S34 : S128.Slices ![2] S34
  slices_S256x192x35_o0_0_1_S256x192x34 : S256x192x35.Slices ![0, 0, 1] S256x192x34
  slices_S128_o0_S33 : S128.Slices ![0] S33
  shapeCasts_S33_S1x1x33 : S33.ShapeCasts S1x1x33
  broadcasts_S256x192x1_S256x192x33 : S256x192x1.Broadcasts S256x192x33
  broadcasts_S1x1x33_S256x192x33 : S1x1x33.Broadcasts S256x192x33
  slices_S128_o2_S33 : S128.Slices ![2] S33
  slices_S256x192x34_o0_0_0_S256x192x33 : S256x192x34.Slices ![0, 0, 0] S256x192x33
  slices_S128_o3_S33 : S128.Slices ![3] S33
  slices_S128_o1_S33 : S128.Slices ![1] S33
  slices_S256x192x34_o0_0_1_S256x192x33 : S256x192x34.Slices ![0, 0, 1] S256x192x33
  slices_S128_o0_S32 : S128.Slices ![0] S32
  shapeCasts_S32_S1x1x32 : S32.ShapeCasts S1x1x32
  broadcasts_S256x192x1_S256x192x32 : S256x192x1.Broadcasts S256x192x32
  broadcasts_S1x1x32_S256x192x32 : S1x1x32.Broadcasts S256x192x32
  slices_S128_o3_S32 : S128.Slices ![3] S32
  slices_S256x192x33_o0_0_0_S256x192x32 : S256x192x33.Slices ![0, 0, 0] S256x192x32
  slices_S128_o4_S32 : S128.Slices ![4] S32
  slices_S128_o1_S32 : S128.Slices ![1] S32
  slices_S256x192x33_o0_0_1_S256x192x32 : S256x192x33.Slices ![0, 0, 1] S256x192x32
  inb_S256x32x3_S256x32x3_0_0_0 : ∀ a, (![0, 0, 0] : Fin 3 → Nat) a + S256x32x3.size a ≤ S256x32x3.size a
  h_S256x32x3 : 0 < S256x32x3.numel
  inb_S256x32x1_S256x32x1_0_0_0 : ∀ a, (![0, 0, 0] : Fin 3 → Nat) a + S256x32x1.size a ≤ S256x32x1.size a
  h_S256x32x1 : 0 < S256x32x1.numel
  broadcasts_S256x32x1_S256x32x3 : S256x32x1.Broadcasts S256x32x3
  bitsLt_bf16_f32 : FTy.bits .bf16 < FTy.bits .f32
  broadcasts_S256x192x1_S256x192x3 : S256x192x1.Broadcasts S256x192x3
  inb_S256x192x3_S256x192x3_0_0_0 : ∀ a, (![0, 0, 0] : Fin 3 → Nat) a + S256x192x3.size a ≤ S256x192x3.size a
  h_S256x192x3 : 0 < S256x192x3.numel
  bcast_S8192x192x3_S8192x192x3x1_0_1_2 : S8192x192x3.BroadcastsInDim S8192x192x3x1 (![0, 1, 2] : Fin 3 → Fin S8192x192x3x1.rank)
  dot_S256x192x32_S256x32x3_S256x192x3_2_1_1_2_0_0_wf : DotDims.WF S256x192x32 S256x32x3 S256x192x3 [2] [1] [1] [2] [0] [0]
  dot_S256x192x32_S256x32x1_S256x192x1_2_1_1_2_0_0_wf : DotDims.WF S256x192x32 S256x32x1 S256x192x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x3.size a ≤ S8192x32x3.size a
  hwx0_0 : ∀ i : grid0.Coords, EltTy.bits .f32 = 32 ∨ (Rect.block (s := S8192x32x3) S256x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x1.size a ≤ S8192x32x1.size a
  hwx0_1 : ∀ i : grid0.Coords, EltTy.bits .f32 = 32 ∨ (Rect.block (s := S8192x32x1) S256x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x192.size a ≤ S8192x192.size a
  hwx0_2 : ∀ i : grid0.Coords, EltTy.bits .f32 = 32 ∨ (Rect.block (s := S8192x192) S256x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x192x3.size a ≤ S8192x192x3.size a
  hwx0_4 : ∀ i : grid0.Coords, EltTy.bits .f32 = 32 ∨ (Rect.block (s := S8192x192x3) S256x192x3.size (cc0_transform_4 i) (hinb0_4 i)).WholeWords (EltTy.packing .f32)

variable [Facts₀]

def dot_S256x192x32_S256x32x3_S256x192x3_2_1_1_2_0_0 : DotDims S256x192x32 S256x32x3 S256x192x3 where
  lhsContracting := [2]
  rhsContracting := [1]
  lhsNonContracting := [1]
  rhsNonContracting := [2]
  lhsBatch := [0]
  rhsBatch := [0]
  wf := dot_S256x192x32_S256x32x3_S256x192x3_2_1_1_2_0_0_wf
def dot_S256x192x32_S256x32x1_S256x192x1_2_1_1_2_0_0 : DotDims S256x192x32 S256x32x1 S256x192x1 where
  lhsContracting := [2]
  rhsContracting := [1]
  lhsNonContracting := [1]
  rhsNonContracting := [2]
  lhsBatch := [0]
  rhsBatch := [0]
  wf := dot_S256x192x32_S256x32x1_S256x192x1_2_1_1_2_0_0_wf

abbrev win0_0 : Pipeline.Window sig grid0 :=
  Pipeline.Window.ofSpec (Memref.whole main_arg0) S256x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x192x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x32x3 : Shape := ⟨3, ![8192, 32, 3]⟩
abbrev S8192x32x1 : Shape := ⟨3, ![8192, 32, 1]⟩
abbrev S8192x192 : Shape := ⟨2, ![8192, 192]⟩
abbrev S36 : Shape := ⟨1, ![36]⟩
abbrev S8192x192x1 : Shape := ⟨3, ![8192, 192, 1]⟩
abbrev S35 : Shape := ⟨1, ![35]⟩
abbrev S1x1x35 : Shape := ⟨3, ![1, 1, 35]⟩
abbrev S8192x192x35 : Shape := ⟨3, ![8192, 192, 35]⟩
abbrev S34 : Shape := ⟨1, ![34]⟩
abbrev S1x1x34 : Shape := ⟨3, ![1, 1, 34]⟩
abbrev S8192x192x34 : Shape := ⟨3, ![8192, 192, 34]⟩
abbrev S_ : Shape := ⟨0, ![]⟩
abbrev S33 : Shape := ⟨1, ![33]⟩
abbrev S1x1x33 : Shape := ⟨3, ![1, 1, 33]⟩
abbrev S8192x192x33 : Shape := ⟨3, ![8192, 192, 33]⟩
abbrev S32 : Shape := ⟨1, ![32]⟩
abbrev S1x1x32 : Shape := ⟨3, ![1, 1, 32]⟩
abbrev S8192x192x32 : Shape := ⟨3, ![8192, 192, 32]⟩
abbrev S8192x192x3 : Shape := ⟨3, ![8192, 192, 3]⟩
abbrev S8192x192x3x1 : Shape := ⟨4, ![8192, 192, 3, 1]⟩

abbrev nBuf : Space → Nat
  | .hbm => 126
  | .vmem => 0
  | .smem => 0
  | _ => 0

abbrev bufTy : (tb : Table) → Fin (tcTables nBuf tb) → BufTy
  | .hbm, ⟨0, _⟩ => ⟨S8192x32x3, .f32⟩
  | .hbm, ⟨1, _⟩ => ⟨S8192x32x1, .f32⟩
  | .hbm, ⟨2, _⟩ => ⟨S8192x192, .f32⟩
  | .hbm, ⟨3, _⟩ => ⟨S36, .f32⟩
  | .hbm, ⟨4, _⟩ => ⟨S8192x192x1, .f32⟩
  | .hbm, ⟨5, _⟩ => ⟨S35, .f32⟩
  | .hbm, ⟨6, _⟩ => ⟨S1x1x35, .f32⟩
  | .hbm, ⟨7, _⟩ => ⟨S8192x192x35, .f32⟩
  | .hbm, ⟨8, _⟩ => ⟨S8192x192x35, .f32⟩
  | .hbm, ⟨9, _⟩ => ⟨S8192x192x35, .i1⟩
  | .hbm, ⟨10, _⟩ => ⟨S35, .f32⟩
  | .hbm, ⟨11, _⟩ => ⟨S1x1x35, .f32⟩
  | .hbm, ⟨12, _⟩ => ⟨S8192x192x35, .f32⟩
  | .hbm, ⟨13, _⟩ => ⟨S8192x192x35, .f32⟩
  | .hbm, ⟨14, _⟩ => ⟨S8192x192x35, .i1⟩
  | .hbm, ⟨15, _⟩ => ⟨S8192x192x35, .i1⟩
  | .hbm, ⟨16, _⟩ => ⟨S8192x192x35, .f32⟩
  | .hbm, ⟨17, _⟩ => ⟨S34, .f32⟩
  | .hbm, ⟨18, _⟩ => ⟨S1x1x34, .f32⟩
  | .hbm, ⟨19, _⟩ => ⟨S8192x192x34, .f32⟩
  | .hbm, ⟨20, _⟩ => ⟨S8192x192x34, .f32⟩
  | .hbm, ⟨21, _⟩ => ⟨S8192x192x34, .f32⟩
  | .hbm, ⟨22, _⟩ => ⟨S34, .f32⟩
  | .hbm, ⟨23, _⟩ => ⟨S34, .f32⟩
  | .hbm, ⟨24, _⟩ => ⟨S34, .f32⟩
  | .hbm, ⟨25, _⟩ => ⟨S_, .f32⟩
  | .hbm, ⟨26, _⟩ => ⟨S34, .f32⟩
  | .hbm, ⟨27, _⟩ => ⟨S34, .f32⟩
  | .hbm, ⟨28, _⟩ => ⟨S1x1x34, .f32⟩
  | .hbm, ⟨29, _⟩ => ⟨S8192x192x34, .f32⟩
  | .hbm, ⟨30, _⟩ => ⟨S8192x192x34, .f32⟩
  | .hbm, ⟨31, _⟩ => ⟨S8192x192x34, .f32⟩
  | .hbm, ⟨32, _⟩ => ⟨S8192x192x34, .f32⟩
  | .hbm, ⟨33, _⟩ => ⟨S34, .f32⟩
  | .hbm, ⟨34, _⟩ => ⟨S1x1x34, .f32⟩
  | .hbm, ⟨35, _⟩ => ⟨S8192x192x34, .f32⟩
  | .hbm, ⟨36, _⟩ => ⟨S8192x192x34, .f32⟩
  | .hbm, ⟨37, _⟩ => ⟨S8192x192x34, .f32⟩
  | .hbm, ⟨38, _⟩ => ⟨S34, .f32⟩
  | .hbm, ⟨39, _⟩ => ⟨S34, .f32⟩
  | .hbm, ⟨40, _⟩ => ⟨S34, .f32⟩
  | .hbm, ⟨41, _⟩ => ⟨S_, .f32⟩
  | .hbm, ⟨42, _⟩ => ⟨S34, .f32⟩
  | .hbm, ⟨43, _⟩ => ⟨S34, .f32⟩
  | .hbm, ⟨44, _⟩ => ⟨S1x1x34, .f32⟩
  | .hbm, ⟨45, _⟩ => ⟨S8192x192x34, .f32⟩
  | .hbm, ⟨46, _⟩ => ⟨S8192x192x34, .f32⟩
  | .hbm, ⟨47, _⟩ => ⟨S8192x192x34, .f32⟩
  | .hbm, ⟨48, _⟩ => ⟨S8192x192x34, .f32⟩
  | .hbm, ⟨49, _⟩ => ⟨S8192x192x34, .f32⟩
  | .hbm, ⟨50, _⟩ => ⟨S33, .f32⟩
  | .hbm, ⟨51, _⟩ => ⟨S1x1x33, .f32⟩
  | .hbm, ⟨52, _⟩ => ⟨S8192x192x33, .f32⟩
  | .hbm, ⟨53, _⟩ => ⟨S8192x192x33, .f32⟩
  | .hbm, ⟨54, _⟩ => ⟨S8192x192x33, .f32⟩
  | .hbm, ⟨55, _⟩ => ⟨S33, .f32⟩
  | .hbm, ⟨56, _⟩ => ⟨S33, .f32⟩
  | .hbm, ⟨57, _⟩ => ⟨S33, .f32⟩
  | .hbm, ⟨58, _⟩ => ⟨S_, .f32⟩
  | .hbm, ⟨59, _⟩ => ⟨S33, .f32⟩
  | .hbm, ⟨60, _⟩ => ⟨S33, .f32⟩
  | .hbm, ⟨61, _⟩ => ⟨S1x1x33, .f32⟩
  | .hbm, ⟨62, _⟩ => ⟨S8192x192x33, .f32⟩
  | .hbm, ⟨63, _⟩ => ⟨S8192x192x33, .f32⟩
  | .hbm, ⟨64, _⟩ => ⟨S8192x192x33, .f32⟩
  | .hbm, ⟨65, _⟩ => ⟨S8192x192x33, .f32⟩
  | .hbm, ⟨66, _⟩ => ⟨S33, .f32⟩
  | .hbm, ⟨67, _⟩ => ⟨S1x1x33, .f32⟩
  | .hbm, ⟨68, _⟩ => ⟨S8192x192x33, .f32⟩
  | .hbm, ⟨69, _⟩ => ⟨S8192x192x33, .f32⟩
  | .hbm, ⟨70, _⟩ => ⟨S8192x192x33, .f32⟩
  | .hbm, ⟨71, _⟩ => ⟨S33, .f32⟩
  | .hbm, ⟨72, _⟩ => ⟨S33, .f32⟩
  | .hbm, ⟨73, _⟩ => ⟨S33, .f32⟩
  | .hbm, ⟨74, _⟩ => ⟨S_, .f32⟩
  | .hbm, ⟨75, _⟩ => ⟨S33, .f32⟩
  | .hbm, ⟨76, _⟩ => ⟨S33, .f32⟩
  | .hbm, ⟨77, _⟩ => ⟨S1x1x33, .f32⟩
  | .hbm, ⟨78, _⟩ => ⟨S8192x192x33, .f32⟩
  | .hbm, ⟨79, _⟩ => ⟨S8192x192x33, .f32⟩
  | .hbm, ⟨80, _⟩ => ⟨S8192x192x33, .f32⟩
  | .hbm, ⟨81, _⟩ => ⟨S8192x192x33, .f32⟩
  | .hbm, ⟨82, _⟩ => ⟨S8192x192x33, .f32⟩
  | .hbm, ⟨83, _⟩ => ⟨S32, .f32⟩
  | .hbm, ⟨84, _⟩ => ⟨S1x1x32, .f32⟩
  | .hbm, ⟨85, _⟩ => ⟨S8192x192x32, .f32⟩
  | .hbm, ⟨86, _⟩ => ⟨S8192x192x32, .f32⟩
  | .hbm, ⟨87, _⟩ => ⟨S8192x192x32, .f32⟩
  | .hbm, ⟨88, _⟩ => ⟨S32, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S1x1x32, .f32⟩
  | .hbm, ⟨95, _⟩ => ⟨S8192x192x32, .f32⟩
  | .hbm, ⟨96, _⟩ => ⟨S8192x192x32, .f32⟩
  | .hbm, ⟨97, _⟩ => ⟨S8192x192x32, .f32⟩
  | .hbm, ⟨98, _⟩ => ⟨S8192x192x32, .f32⟩
  | .hbm, ⟨99, _⟩ => ⟨S32, .f32⟩
  | .hbm, ⟨100, _⟩ => ⟨S1x1x32, .f32⟩
  | .hbm, ⟨101, _⟩ => ⟨S8192x192x32, .f32⟩
  | .hbm, ⟨102, _⟩ => ⟨S8192x192x32, .f32⟩
  | .hbm, ⟨103, _⟩ => ⟨S8192x192x32, .f32⟩
  | .hbm, ⟨104, _⟩ => ⟨S32, .f32⟩
  | .hbm, ⟨105, _⟩ => ⟨S32, .f32⟩
  | .hbm, ⟨106, _⟩ => ⟨S32, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S1x1x32, .f32⟩
  | .hbm, ⟨111, _⟩ => ⟨S8192x192x32, .f32⟩
  | .hbm, ⟨112, _⟩ => ⟨S8192x192x32, .f32⟩
  | .hbm, ⟨113, _⟩ => ⟨S8192x192x32, .f32⟩
  | .hbm, ⟨114, _⟩ => ⟨S8192x192x32, .f32⟩
  | .hbm, ⟨115, _⟩ => ⟨S8192x192x32, .f32⟩
  | .hbm, ⟨116, _⟩ => ⟨S8192x32x3, .f32⟩
  | .hbm, ⟨117, _⟩ => ⟨S8192x32x3, .f32⟩
  | .hbm, ⟨118, _⟩ => ⟨S8192x192x3, .f32⟩
  | .hbm, ⟨119, _⟩ => ⟨S8192x192x1, .f32⟩
  | .hbm, ⟨120, _⟩ => ⟨S_, .f32⟩
  | .hbm, ⟨121, _⟩ => ⟨S8192x192x1, .f32⟩
  | .hbm, ⟨122, _⟩ => ⟨S8192x192x1, .f32⟩
  | .hbm, ⟨123, _⟩ => ⟨S8192x192x3, .f32⟩
  | .hbm, ⟨124, _⟩ => ⟨S8192x192x3, .f32⟩
  | .hbm, ⟨125, _⟩ => ⟨S8192x192x3x1, .f32⟩
  | _, _ => ⟨S8192x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_2 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_4 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_5 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_6 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩

abbrev nD : Nat := 1
abbrev τ : Topo := Topo.v7x

variable {F : FTy → Type} [FloatOps F]

class Facts₀ : Prop where
  bcast_S8192x192_S8192x192x1_0_1 : S8192x192.BroadcastsInDim S8192x192x1 (![0, 1] : Fin 2 → Fin S8192x192x1.rank)
  slices_S36_S35_0 : S36.Slices ![0] S35
  bcast_S35_S1x1x35_2 : S35.BroadcastsInDim S1x1x35 (![2] : Fin 1 → Fin S1x1x35.rank)
  bcast_S1x1x35_S8192x192x35_0_1_2 : S1x1x35.BroadcastsInDim S8192x192x35 (![0, 1, 2] : Fin 3 → Fin S8192x192x35.rank)
  bcast_S8192x192x1_S8192x192x35_0_1_2 : S8192x192x1.BroadcastsInDim S8192x192x35 (![0, 1, 2] : Fin 3 → Fin S8192x192x35.rank)
  slices_S36_S35_1 : S36.Slices ![1] S35
  slices_S36_S34_0 : S36.Slices ![0] S34
  bcast_S34_S1x1x34_2 : S34.BroadcastsInDim S1x1x34 (![2] : Fin 1 → Fin S1x1x34.rank)
  bcast_S8192x192x1_S8192x192x34_0_1_2 : S8192x192x1.BroadcastsInDim S8192x192x34 (![0, 1, 2] : Fin 3 → Fin S8192x192x34.rank)
  bcast_S1x1x34_S8192x192x34_0_1_2 : S1x1x34.BroadcastsInDim S8192x192x34 (![0, 1, 2] : Fin 3 → Fin S8192x192x34.rank)
  slices_S36_S34_1 : S36.Slices ![1] S34
  bcast_S_S34 : S_.BroadcastsInDim S34 (![] : Fin 0 → Fin S34.rank)
  slices_S8192x192x35_S8192x192x34_0_0_0 : S8192x192x35.Slices ![0, 0, 0] S8192x192x34
  slices_S36_S34_2 : S36.Slices ![2] S34
  slices_S8192x192x35_S8192x192x34_0_0_1 : S8192x192x35.Slices ![0, 0, 1] S8192x192x34
  slices_S36_S33_0 : S36.Slices ![0] S33
  bcast_S33_S1x1x33_2 : S33.BroadcastsInDim S1x1x33 (![2] : Fin 1 → Fin S1x1x33.rank)
  bcast_S8192x192x1_S8192x192x33_0_1_2 : S8192x192x1.BroadcastsInDim S8192x192x33 (![0, 1, 2] : Fin 3 → Fin S8192x192x33.rank)
  bcast_S1x1x33_S8192x192x33_0_1_2 : S1x1x33.BroadcastsInDim S8192x192x33 (![0, 1, 2] : Fin 3 → Fin S8192x192x33.rank)
  slices_S36_S33_2 : S36.Slices ![2] S33
  bcast_S_S33 : S_.BroadcastsInDim S33 (![] : Fin 0 → Fin S33.rank)
  slices_S8192x192x34_S8192x192x33_0_0_0 : S8192x192x34.Slices ![0, 0, 0] S8192x192x33
  slices_S36_S33_3 : S36.Slices ![3] S33
  slices_S36_S33_1 : S36.Slices ![1] S33
  slices_S8192x192x34_S8192x192x33_0_0_1 : S8192x192x34.Slices ![0, 0, 1] S8192x192x33
  slices_S36_S32_0 : S36.Slices ![0] S32
  bcast_S32_S1x1x32_2 : S32.BroadcastsInDim S1x1x32 (![2] : Fin 1 → Fin S1x1x32.rank)
  bcast_S8192x192x1_S8192x192x32_0_1_2 : S8192x192x1.BroadcastsInDim S8192x192x32 (![0, 1, 2] : Fin 3 → Fin S8192x192x32.rank)
  bcast_S1x1x32_S8192x192x32_0_1_2 : S1x1x32.BroadcastsInDim S8192x192x32 (![0, 1, 2] : Fin 3 → Fin S8192x192x32.rank)
  slices_S36_S32_3 : S36.Slices ![3] S32
  bcast_S_S32 : S_.BroadcastsInDim S32 (![] : Fin 0 → Fin S32.rank)
  slices_S8192x192x33_S8192x192x32_0_0_0 : S8192x192x33.Slices ![0, 0, 0] S8192x192x32
  slices_S36_S32_4 : S36.Slices ![4] S32
  slices_S36_S32_1 : S36.Slices ![1] S32
  slices_S8192x192x33_S8192x192x32_0_0_1 : S8192x192x33.Slices ![0, 0, 1] S8192x192x32
  bcast_S8192x32x1_S8192x32x3_0_1_2 : S8192x32x1.BroadcastsInDim S8192x32x3 (![0, 1, 2] : Fin 3 → Fin S8192x32x3.rank)
  bcast_S_S8192x192x1 : S_.BroadcastsInDim S8192x192x1 (![] : Fin 0 → Fin S8192x192x1.rank)
  bcast_S8192x192x1_S8192x192x3_0_1_2 : S8192x192x1.BroadcastsInDim S8192x192x3 (![0, 1, 2] : Fin 3 → Fin S8192x192x3.rank)
  bcast_S8192x192x3_S8192x192x3x1_0_1_2 : S8192x192x3.BroadcastsInDim S8192x192x3x1 (![0, 1, 2] : Fin 3 → Fin S8192x192x3x1.rank)
  dot_S8192x192x32_S8192x32x3_S8192x192x3_2_1_1_2_0_0_wf : DotDims.WF S8192x192x32 S8192x32x3 S8192x192x3 [2] [1] [1] [2] [0] [0]
  dot_S8192x192x32_S8192x32x1_S8192x192x1_2_1_1_2_0_0_wf : DotDims.WF S8192x192x32 S8192x32x1 S8192x192x1 [2] [1] [1] [2] [0] [0]

variable [Facts₀]

def dot_S8192x192x32_S8192x32x3_S8192x192x3_2_1_1_2_0_0 : DotDims S8192x192x32 S8192x32x3 S8192x192x3 where
  lhsContracting := [2]
  rhsContracting := [1]
  lhsNonContracting := [1]
  rhsNonContracting := [2]
  lhsBatch := [0]
  rhsBatch := [0]
  wf := dot_S8192x192x32_S8192x32x3_S8192x192x3_2_1_1_2_0_0_wf
def dot_S8192x192x32_S8192x32x1_S8192x192x1_2_1_1_2_0_0 : DotDims S8192x192x32 S8192x32x1 S8192x192x1 where
  lhsContracting := [2]
  rhsContracting := [1]
  lhsNonContracting := [1]
  rhsNonContracting := [2]
  lhsBatch := [0]
  rhsBatch := [0]
  wf := dot_S8192x192x32_S8192x32x1_S8192x192x1_2_1_1_2_0_0_wf

class Facts : Prop extends Facts₀ where

variable [Facts]
-- ==== Proof.Spec.lean ====
/-
  The function both programs compute, entry by entry, on the extended reals.

  A clamped cubic B-spline over 32 control points has the knot vector k₀ … k₃₅ (four zeros, 28 interior knots, four
  ones). For a parameter t, the Cox–de Boor recursion starts from the 35 indicators
      N⁰ⱼ(t) = [kⱼ ≤ t < kⱼ₊₁]
  and climbs three levels,
      Nᵖⱼ(t) = (t − kⱼ) / (kⱼ₊ₚ − kⱼ + ε) · Nᵖ⁻¹ⱼ(t) + (kⱼ₊ₚ₊₁ − t) / (kⱼ₊ₚ₊₁ − kⱼ₊₁ + ε) · Nᵖ⁻¹ⱼ₊₁(t),
  the ε keeping the repeated end knots' zero spans from dividing by zero, to the 32 cubic basis values N³ⱼ(t).
  The rational curve point of batch row b at its parameter u, coordinate d, is then
      ( ∑ₖ N³ₖ(t) · (cp[b,k,d] · w[b,k]) ) / ( ∑ₖ N³ₖ(t) · w[b,k] + ε ),   t = ub[b,u].
  Knots are read at natural-number positions, so that a cut of the knot vector from `o` reads position `o + j`.
-/
import Idealize.ShloMosaic.PureOps.Ideal
import Idealize.ShloMosaic.Lib.ValueIdx

noncomputable section

namespace Cert.Spline

open Idealize.ShloMosaic Idealize.ShloMosaic.ValueIdx

/-- The knot vector's words: four zeros, the f32 nearest to i/29 for i = 1 … 28, and ones from position 32 on. -/
def knotW : Nat → BitVec 32
  | 0 => 0x00000000#32 | 1 => 0x00000000#32 | 2 => 0x00000000#32 | 3 => 0x00000000#32
  | 4 => 0x3D0D3DCB#32 | 5 => 0x3D8D3DCB#32 | 6 => 0x3DD3DCB1#32 | 7 => 0x3E0D3DCB#32
  | 8 => 0x3E308D3E#32 | 9 => 0x3E53DCB1#32 | 10 => 0x3E772C23#32 | 11 => 0x3E8D3DCB#32
  | 12 => 0x3E9EE584#32 | 13 => 0x3EB08D3E#32 | 14 => 0x3EC234F7#32 | 15 => 0x3ED3DCB1#32
  | 16 => 0x3EE5846A#32 | 17 => 0x3EF72C23#32 | 18 => 0x3F0469EE#32 | 19 => 0x3F0D3DCB#32
  | 20 => 0x3F1611A8#32 | 21 => 0x3F1EE584#32 | 22 => 0x3F27B961#32 | 23 => 0x3F308D3E#32
  | 24 => 0x3F39611A#32 | 25 => 0x3F4234F7#32 | 26 => 0x3F4B08D4#32 | 27 => 0x3F53DCB1#32
  | 28 => 0x3F5CB08D#32 | 29 => 0x3F65846A#32 | 30 => 0x3F6E5847#32 | 31 => 0x3F772C23#32
  | _ => 0x3F800000#32

/-- Knot `n` as an extended real. -/
def K (n : Nat) : EReal := Ideal.ofBits .f32 (knotW n)

/-- The ε of the recursion's denominators and of the final quotient: the f32 nearest to 1e-7. -/
def eps : EReal := Ideal.ofBits .f32 0x33D6BF95#32

/-- Level 0: the indicator of the half-open knot span [kⱼ, kⱼ₊₁) at t, as 0 or 1. -/
def lvl0 (t : EReal) (j : Nat) : EReal :=
  FloatOps.uitofp (F := Ideal) .f32 (IntOp.andi (FloatOps.cmpf (F := Ideal) (φ := .f32) .ole (K j) t) (FloatOps.cmpf (F := Ideal) (φ := .f32) .olt t (K (1 + j))))

/-- One Cox–de Boor step from the level below (`prev`) to level p, with `q = p + 1`. -/
def lvl (p q : Nat) (prev : Nat → EReal) (t : EReal) (j : Nat) : EReal :=
  Ideal.div (t - K j) (K (p + j) - K j + eps) * prev j
    + Ideal.div (K (q + j) - t) (K (q + j) - K (1 + j) + eps) * prev (1 + j)

def lvl1 (t : EReal) : Nat → EReal := lvl 1 2 (lvl0 t) t
def lvl2 (t : EReal) : Nat → EReal := lvl 2 3 (lvl1 t) t
/-- The cubic basis values N³ⱼ(t). -/
def lvl3 (t : EReal) : Nat → EReal := lvl 3 4 (lvl2 t) t

/-- One coordinate of the rational curve point: the basis-weighted sum of the weighted control points over the
    basis-weighted sum of the weights plus ε. -/
def row (t : EReal) (cp : Fin 32 → EReal) (w : Fin 32 → EReal) : EReal :=
  Ideal.div (∑ k : Fin 32, lvl3 t k.val * (cp k * w k)) ((∑ k : Fin 32, lvl3 t k.val * w k) + eps)

/-- The whole result [8192, 192, 3, 1] as one function of the three argument arrays. -/
def G (cp : (⟨3, ![8192, 32, 3]⟩ : Shape).Idx → EReal) (w : (⟨3, ![8192, 32, 1]⟩ : Shape).Idx → EReal)
    (ub : (⟨2, ![8192, 192]⟩ : Shape).Idx → EReal) : (⟨4, ![8192, 192, 3, 1]⟩ : Shape).Idx → EReal :=
  fun i => row (ub (ix2 (i 0) (i 1))) (fun k => cp (ix3 (i 0) k (i 2))) (fun k => w (ix3 (i 0) k (0 : Fin 1)))

/-- A one-bit word widened to 32 bits and read as a signed integer is the bit read unsigned: the kernel's
    `extui` then `sitofp` is the host's `convert` of a comparison's result. -/
theorem sitofp_extui_bit (x : BitVec 1) :
    FloatOps.sitofp (F := Ideal) .f32 (x.setWidth 32) = FloatOps.uitofp (F := Ideal) .f32 x := by
  have h : ∀ y : BitVec 1, (y.setWidth 32).toInt = (y.toNat : Int) := by decide
  show (((x.setWidth 32).toInt : ℝ) : EReal) = (((x.toNat : ℕ) : ℝ) : EReal)
  rw [h x]; simp

end Cert.Spline

end
-- ==== Proof.Layout.lean ====
/-
  Layout operations of the two programs read at an index written by coordinates: a cut of a vector, a cut of a
  rank-3 array along its last axis, and the unit-axis casts and broadcasts that carry a knot vector [n] and a
  parameter array [a, b] to the common shape [a, b, n]. Each lemma says which ONE entry of the operand an entry of
  the result is; extents are generic.
-/
import Idealize.ShloMosaic.Lib.ValueLayout

namespace Cert.Lay

open Idealize.ShloMosaic Idealize.ShloMosaic.ValueIdx

variable {α : Type}

/-- A vector cut from `o`: entry `j` of the cut is entry `o + j` of the vector. -/
theorem slice1_eq {n m : Nat} (o : Nat) (x : (⟨1, ![n]⟩ : Shape).Idx → α)
    (h : (⟨1, ![n]⟩ : Shape).Slices ![o] ⟨1, ![m]⟩) (j : Fin m) :
    extractStridedSlice ⟨1, ![m]⟩ ![o] x h (ix1 j)
      = x (ix1 ⟨o + j.val, Nat.lt_of_lt_of_le (Nat.add_lt_add_left j.isLt o) (h.2 0)⟩) :=
  extractStridedSlice_apply _ _ _ _ _ (fun ax => by
    match ax with
    | ⟨0, _⟩ => rfl)

/-- A rank-3 array cut along its last axis from `o`: entry `(p, q, j)` of the cut is entry `(p, q, o + j)`. -/
theorem slice3_last_eq {a b n m : Nat} (o : Nat) (x : (⟨3, ![a, b, n]⟩ : Shape).Idx → α)
    (h : (⟨3, ![a, b, n]⟩ : Shape).Slices ![0, 0, o] ⟨3, ![a, b, m]⟩) (p : Fin a) (q : Fin b) (j : Fin m) :
    extractStridedSlice ⟨3, ![a, b, m]⟩ ![0, 0, o] x h (ix3 p q j)
      = x (ix3 p q ⟨o + j.val, Nat.lt_of_lt_of_le (Nat.add_lt_add_left j.isLt o) (h.2 2)⟩) :=
  extractStridedSlice_apply _ _ _ _ _ (fun ax => by
    match ax with
    | ⟨0, _⟩ => exact (Nat.zero_add _).symm
    | ⟨1, _⟩ => exact (Nat.zero_add _).symm
    | ⟨2, _⟩ => rfl)

/-- A matrix [a, b] cast to [a, b, 1]: entry `(p, q, u)` is the matrix's entry `(p, q)`. -/
theorem cast_ab_ab1 {a b : Nat} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A vector [n] cast to [1, 1, n]: entry `(u, v, j)` is the vector's entry `j`. -/
theorem cast_n_11n {n : Nat} (x : (⟨1, ![n]⟩ : Shape).Idx → α)
    (h : (⟨1, ![n]⟩ : Shape).ShapeCasts ⟨3, ![1, 1, n]⟩) (u v : Fin 1) (j : Fin n) :
    shapeCast ⟨3, ![1, 1, n]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * n + j.val
    simp only [hu, hv, Nat.zero_mul, Nat.zero_add, Nat.mul_one, Nat.add_zero])

/-- A row [1, 1, n] broadcast to [a, b, n]: entry `(p, q, j)` is the row's entry `j`. -/
theorem bcast_11n_abn {a b n : Nat} (x : (⟨3, ![1, 1, n]⟩ : Shape).Idx → α)
    (h : (⟨3, ![1, 1, n]⟩ : Shape).Broadcasts ⟨3, ![a, b, n]⟩) (p : Fin a) (q : Fin b) (j : Fin n) :
    broadcastTo ⟨3, ![a, b, n]⟩ x h (ix3 p q j) = x (ix3 (0 : Fin 1) (0 : Fin 1) j) := by
  refine broadcastTo_apply x h (ix3 p q j) (ix3 (0 : Fin 1) (0 : Fin 1) j) fun ax => ?_
  match ax with
  | ⟨0, _⟩ => rfl
  | ⟨1, _⟩ => rfl
  | ⟨2, _⟩ =>
    show j.val = if n = 1 then 0 else j.val
    split
    · have := j.isLt; omega
    · rfl

/-- A column [a, b, 1] broadcast to [a, b, n]: entry `(p, q, j)` is the column's entry `(p, q)`. -/
theorem bcast_ab1_abn {a b n : Nat} (x : (⟨3, ![a, b, 1]⟩ : Shape).Idx → α)
    (h : (⟨3, ![a, b, 1]⟩ : Shape).Broadcasts ⟨3, ![a, b, n]⟩) (p : Fin a) (q : Fin b) (j : Fin n) :
    broadcastTo ⟨3, ![a, b, n]⟩ x h (ix3 p q j) = x (ix3 p q (0 : Fin 1)) := by
  refine broadcastTo_apply x h (ix3 p q j) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! The host's spellings of the same re-layings (`broadcast_in_dim`). -/

/-- A matrix [a, b] laid into [a, b, 1] along axes 0 and 1. -/
theorem bid_ab_ab1 {a b : Nat} (x : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A vector [n] laid into [1, 1, n] along axis 2. -/
theorem bid_n_11n {n : Nat} (x : (⟨1, ![n]⟩ : Shape).Idx → α)
    (h : (⟨1, ![n]⟩ : Shape).BroadcastsInDim ⟨3, ![1, 1, n]⟩ ![2]) (u v : Fin 1) (j : Fin n) :
    broadcastInDim ⟨3, ![1, 1, n]⟩ ![2] h x (ix3 u v j) = x (ix1 j) := by
  refine broadcastInDim_apply _ h x (ix3 u v j) (ix1 j) fun ax => ?_
  match ax with
  | ⟨0, _⟩ =>
    show j.val = if n = 1 then 0 else j.val
    split
    · have := j.isLt; omega
    · rfl

/-- A rank-3 array [a', b', n'] laid into [a, b, n] axis by axis: each unit axis of the operand is read at 0. -/
theorem bid3 {a b n a' b' n' : Nat} (x : (⟨3, ![a', b', n']⟩ : Shape).Idx → α)
    (h : (⟨3, ![a', b', n']⟩ : Shape).BroadcastsInDim ⟨3, ![a, b, n]⟩ ![0, 1, 2]) (p : Fin a) (q : Fin b) (j : Fin n)
    (p' : Fin a') (q' : Fin b') (j' : Fin n')
    (hp : p'.val = if a' = 1 then 0 else p.val) (hq : q'.val = if b' = 1 then 0 else q.val)
    (hj : j'.val = if n' = 1 then 0 else j.val) :
    broadcastInDim ⟨3, ![a, b, n]⟩ ![0, 1, 2] h x (ix3 p q j) = x (ix3 p' q' j') := by
  refine broadcastInDim_apply _ h x (ix3 p q j) (ix3 p' q' j') fun ax => ?_
  match ax with
  | ⟨0, _⟩ => exact hp
  | ⟨1, _⟩ => exact hq
  | ⟨2, _⟩ => exact hj

/-- A row [1, 1, n] laid into [a, b, n]. -/
theorem bid_11n_abn {a b n : Nat} (x : (⟨3, ![1, 1, n]⟩ : Shape).Idx → α)
    (h : (⟨3, ![1, 1, n]⟩ : Shape).BroadcastsInDim ⟨3, ![a, b, n]⟩ ![0, 1, 2]) (p : Fin a) (q : Fin b) (j : Fin n) :
    broadcastInDim ⟨3, ![a, b, n]⟩ ![0, 1, 2] h x (ix3 p q j) = x (ix3 (0 : Fin 1) (0 : Fin 1) j) :=
  bid3 x h p q j 0 0 j rfl rfl (by
    show j.val = if n = 1 then 0 else j.val
    split
    · have := j.isLt; omega
    · rfl)

/-- A column [a, b, 1] laid into [a, b, n]. -/
theorem bid_ab1_abn {a b n : Nat} (x : (⟨3, ![a, b, 1]⟩ : Shape).Idx → α)
    (h : (⟨3, ![a, b, 1]⟩ : Shape).BroadcastsInDim ⟨3, ![a, b, n]⟩ ![0, 1, 2]) (p : Fin a) (q : Fin b) (j : Fin n) :
    broadcastInDim ⟨3, ![a, b, n]⟩ ![0, 1, 2] h x (ix3 p q j) = x (ix3 p q (0 : Fin 1)) :=
  bid3 x h p q j p q 0
    (by show p.val = if a = 1 then 0 else p.val
        split
        · have := p.isLt; omega
        · rfl)
    (by show q.val = if b = 1 then 0 else q.val
        split
        · have := q.isLt; omega
        · rfl)
    rfl

/-- A scalar laid over any shape. -/
theorem bid_scalar {s : Shape} (x : (⟨0, ![]⟩ : Shape).Idx → α)
    (h : (⟨0, ![]⟩ : Shape).BroadcastsInDim s ![]) (i : s.Idx) :
    broadcastInDim s ![] h x i = x ix0 :=
  broadcastInDim_apply _ h x i ix0 fun ax => ax.elim0

/-- A rank-3 array [a, b, c] laid into [a, b, c, 1]: entry `i` is the array's entry at `i`'s first three coordinates. -/
theorem bid_abc_abc1 {a b c : Nat} (x : (⟨3, ![a, b, c]⟩ : Shape).Idx → α)
    (h : (⟨3, ![a, b, c]⟩ : Shape).BroadcastsInDim ⟨4, ![a, b, c, 1]⟩ ![0, 1, 2]) (i : (⟨4, ![a, b, c, 1]⟩ : Shape).Idx) :
    broadcastInDim ⟨4, ![a, b, c, 1]⟩ ![0, 1, 2] h x i = x (ix3 (i 0) (i 1) (i 2)) := by
  refine broadcastInDim_apply _ h x i (ix3 (i 0) (i 1) (i 2)) fun ax => ?_
  match ax with
  | ⟨0, _⟩ =>
    show (i 0).val = if a = 1 then 0 else (i 0).val
    split
    · have : (i 0).val < a := (i 0).isLt
      omega
    · rfl
  | ⟨1, _⟩ =>
    show (i 1).val = if b = 1 then 0 else (i 1).val
    split
    · have : (i 1).val < b := (i 1).isLt
      omega
    · rfl
  | ⟨2, _⟩ =>
    show (i 2).val = if c = 1 then 0 else (i 2).val
    split
    · have : (i 2).val < c := (i 2).isLt
      omega
    · rfl

end Cert.Lay
-- ==== Proof.KernelPay.lean ====
/-
  The kernel body's stored value read at an entry of its [256, 192, 3] block: the block's entry (b, u, d) is the rational
  curve point's coordinate d of the block's batch row b at its parameter u — the Cox–de Boor recursion on the loaded
  knot row climbed level by level, the two contractions over the 32 control points as sums, and the quotient.
-/
import proofs.«139278_j36618891166097_1_alg».proof.Proof.Gen.KernelIdeal.Skeleton
import proofs.«139278_j36618891166097_1_alg».proof.Proof.Spec
import proofs.«139278_j36618891166097_1_alg».proof.Proof.Layout
import Idealize.ShloMosaic.PureOps.Ideal.Laws

noncomputable section

namespace Cert.KernelIdeal.Pay

open Cert.KernelIdeal Cert.KernelIdeal.Gen Idealize.ShloMosaic Idealize.ShloMosaic.ValueIdx Cert.Spline

/-- The knot row cast to a vector holds the knot vector. -/
theorem knot3 (v2 : Vec Ideal S1x128 .f32) (hK : ∀ (n : Nat) (h : n < 128), v2 (ix2 (0 : Fin 1) ⟨n, h⟩) = K n)
    (n : Nat) (h : n < 128) : k0_pay3 (F := Ideal) v2 (ix1 ⟨n, h⟩) = K n := by
  unfold k0_pay3
  exact (shapeCast_1a_a_apply v2 _ ⟨n, h⟩).trans (hK n h)

/-- The parameter block cast to a column holds the parameters. -/
theorem pay2_apply (v0 : Vec Ideal S256x192 .f32) (b : Fin 256) (u : Fin 192) (z : Fin 1) :
    k0_pay2 (F := Ideal) v0 (ix3 b u z) = v0 (ix2 b u) := by
  unfold k0_pay2
  exact Lay.cast_ab_ab1 v0 _ b u z

/-- The parameter minus the knots k₀ … k₃₂. -/
theorem pay5_apply (v0 : Vec Ideal S256x192 .f32) (v2 : Vec Ideal S1x128 .f32)
    (hK : ∀ (n : Nat) (h : n < 128), v2 (ix2 (0 : Fin 1) ⟨n, h⟩) = K n) (b : Fin 256) (u : Fin 192) (j : Fin 33) :
    k0_pay5 (F := Ideal) v0 v2 (ix3 b u j) = v0 (ix2 b u) - K j.val := by
  unfold k0_pay5
  simp only [subf_apply, Lay.bcast_ab1_abn, Lay.bcast_11n_abn, Lay.cast_n_11n, Lay.slice1_eq, pay2_apply, knot3 v2 hK,
    Nat.zero_add]

/-- A bitwise and of two vectors of words, read at an index. -/
theorem andi_apply {s : Shape} {w : Nat} (x y : IVec s w) (i : s.Idx) : andi x y i = IntOp.andi (x i) (y i) := rfl

/-- The kernel's ε constant is the recursion's ε. -/
theorem eps_def : Scalar.ofBits (F := Ideal) .f32 0x33D6BF95#32 = eps := rfl

/-- Level 1 of the recursion, with the indicators of level 0 inside it. -/
theorem pay4_apply (v0 : Vec Ideal S256x192 .f32) (v2 : Vec Ideal S1x128 .f32)
    (hK : ∀ (n : Nat) (h : n < 128), v2 (ix2 (0 : Fin 1) ⟨n, h⟩) = K n) (b : Fin 256) (u : Fin 192) (j : Fin 34) :
    k0_pay4 (F := Ideal) v0 v2 (ix3 b u j) = lvl1 (v0 (ix2 b u)) j.val := by
  unfold k0_pay4
  simp only [addf_apply, mulf_apply, divf_apply, subf_apply, sitofp_apply, extui_apply, cmpf_apply, andi_apply,
    broadcast_apply, eps_def, Lay.bcast_ab1_abn, Lay.bcast_11n_abn, Lay.cast_n_11n, Lay.slice1_eq, Lay.slice3_last_eq,
    pay2_apply, knot3 v2 hK, Nat.zero_add, sitofp_extui_bit]
  unfold lvl1 lvl lvl0
  rfl

/-- Level 2 of the recursion, from a parameter column, a knot vector, level 1 and the parameter minus the knots. -/
theorem pay6_apply (v1 : FVec Ideal S256x192x1 .f32) (v3 : FVec Ideal S128 .f32) (v47 : FVec Ideal S256x192x34 .f32)
    (v52 : FVec Ideal S256x192x33 .f32) (t : EReal) (b : Fin 256) (u : Fin 192)
    (h1 : ∀ z : Fin 1, v1 (ix3 b u z) = t) (h3 : ∀ (n : Nat) (h : n < 128), v3 (ix1 ⟨n, h⟩) = K n)
    (h47 : ∀ j : Fin 34, v47 (ix3 b u j) = lvl1 t j.val) (h52 : ∀ j : Fin 33, v52 (ix3 b u j) = t - K j.val)
    (j : Fin 33) : k0_pay6 (F := Ideal) v1 v3 v47 v52 (ix3 b u j) = lvl2 t j.val := by
  unfold k0_pay6
  simp only [addf_apply, mulf_apply, divf_apply, subf_apply, broadcast_apply, eps_def, Lay.bcast_ab1_abn,
    Lay.bcast_11n_abn, Lay.cast_n_11n, Lay.slice1_eq, Lay.slice3_last_eq, h1, h3, h47, h52, Nat.zero_add]
  unfold lvl2 lvl
  rfl

/-- The first summand of level 3. -/
theorem pay7_apply (v1 : FVec Ideal S256x192x1 .f32) (v3 : FVec Ideal S128 .f32) (v47 : FVec Ideal S256x192x34 .f32)
    (v52 : FVec Ideal S256x192x33 .f32) (t : EReal) (b : Fin 256) (u : Fin 192)
    (h1 : ∀ z : Fin 1, v1 (ix3 b u z) = t) (h3 : ∀ (n : Nat) (h : n < 128), v3 (ix1 ⟨n, h⟩) = K n)
    (h47 : ∀ j : Fin 34, v47 (ix3 b u j) = lvl1 t j.val) (h52 : ∀ j : Fin 33, v52 (ix3 b u j) = t - K j.val)
    (k : Fin 32) : k0_pay7 (F := Ideal) v1 v3 v47 v52 (ix3 b u k)
      = Ideal.div (t - K k.val) (K (3 + k.val) - K k.val + eps) * lvl2 t k.val := by
  unfold k0_pay7
  simp only [mulf_apply, addf_apply, divf_apply, subf_apply, broadcast_apply, eps_def, Lay.bcast_ab1_abn, Lay.bcast_11n_abn,
    Lay.cast_n_11n, Lay.slice1_eq, Lay.slice3_last_eq, h1, h3, pay6_apply v1 v3 v47 v52 t b u h1 h3 h47 h52, Nat.zero_add]

/-- The second summand of level 3. -/
theorem pay8_apply (v1 : FVec Ideal S256x192x1 .f32) (v3 : FVec Ideal S128 .f32) (v47 : FVec Ideal S256x192x34 .f32)
    (v52 : FVec Ideal S256x192x33 .f32) (t : EReal) (b : Fin 256) (u : Fin 192)
    (h1 : ∀ z : Fin 1, v1 (ix3 b u z) = t) (h3 : ∀ (n : Nat) (h : n < 128), v3 (ix1 ⟨n, h⟩) = K n)
    (h47 : ∀ j : Fin 34, v47 (ix3 b u j) = lvl1 t j.val) (h52 : ∀ j : Fin 33, v52 (ix3 b u j) = t - K j.val)
    (k : Fin 32) : k0_pay8 (F := Ideal) v1 v3 v47 v52 (ix3 b u k)
      = Ideal.div (K (4 + k.val) - t) (K (4 + k.val) - K (1 + k.val) + eps) * lvl2 t (1 + k.val) := by
  unfold k0_pay8
  simp only [mulf_apply, addf_apply, divf_apply, subf_apply, broadcast_apply, eps_def, Lay.bcast_ab1_abn, Lay.bcast_11n_abn,
    Lay.cast_n_11n, Lay.slice1_eq, Lay.slice3_last_eq, h1, h3, pay6_apply v1 v3 v47 v52 t b u h1 h3 h47 h52, Nat.zero_add]

/-! The operand indices of the contraction into [256, 192, 3], coordinate by coordinate: the batch row and the free
    coordinate come from the result index, the contracted coordinate from the contraction index. -/

theorem lhs3_0 (i : S256x192x3.Idx) (q : dot_S256x192x32_S256x32x3_S256x192x3_2_1_1_2_0_0.contr.Idx) :
    (dot_S256x192x32_S256x32x3_S256x192x3_2_1_1_2_0_0.lhsIdx i q 0).val = (i 0).val := by
  unfold DotDims.lhsIdx
  rw [dif_pos (show (0 : Fin S256x192x32.rank) ∈ dot_S256x192x32_S256x32x3_S256x192x3_2_1_1_2_0_0.lhsBatch by decide)]
  rfl

theorem lhs3_1 (i : S256x192x3.Idx) (q : dot_S256x192x32_S256x32x3_S256x192x3_2_1_1_2_0_0.contr.Idx) :
    (dot_S256x192x32_S256x32x3_S256x192x3_2_1_1_2_0_0.lhsIdx i q 1).val = (i 1).val := by
  unfold DotDims.lhsIdx
  rw [dif_neg (show ¬(1 : Fin S256x192x32.rank) ∈ dot_S256x192x32_S256x32x3_S256x192x3_2_1_1_2_0_0.lhsBatch by decide),
    dif_pos (show (1 : Fin S256x192x32.rank) ∈ dot_S256x192x32_S256x32x3_S256x192x3_2_1_1_2_0_0.lhsNonContracting by decide)]
  rfl

theorem lhs3_2 (i : S256x192x3.Idx) (q : dot_S256x192x32_S256x32x3_S256x192x3_2_1_1_2_0_0.contr.Idx) :
    (dot_S256x192x32_S256x32x3_S256x192x3_2_1_1_2_0_0.lhsIdx i q 2).val = (q ⟨0, by decide⟩).val :=
  dot_S256x192x32_S256x32x3_S256x192x3_2_1_1_2_0_0.lhsIdx_val_of_single rfl i q

theorem rhs3_0 (i : S256x192x3.Idx) (q : dot_S256x192x32_S256x32x3_S256x192x3_2_1_1_2_0_0.contr.Idx) :
    (dot_S256x192x32_S256x32x3_S256x192x3_2_1_1_2_0_0.rhsIdx i q 0).val = (i 0).val := by
  unfold DotDims.rhsIdx
  rw [dif_pos (show (0 : Fin S256x32x3.rank) ∈ dot_S256x192x32_S256x32x3_S256x192x3_2_1_1_2_0_0.rhsBatch by decide)]
  rfl

theorem rhs3_1 (i : S256x192x3.Idx) (q : dot_S256x192x32_S256x32x3_S256x192x3_2_1_1_2_0_0.contr.Idx) :
    (dot_S256x192x32_S256x32x3_S256x192x3_2_1_1_2_0_0.rhsIdx i q 1).val = (q ⟨0, by decide⟩).val :=
  dot_S256x192x32_S256x32x3_S256x192x3_2_1_1_2_0_0.rhsIdx_val_of_single rfl i q

theorem rhs3_2 (i : S256x192x3.Idx) (q : dot_S256x192x32_S256x32x3_S256x192x3_2_1_1_2_0_0.contr.Idx) :
    (dot_S256x192x32_S256x32x3_S256x192x3_2_1_1_2_0_0.rhsIdx i q 2).val = (i 2).val := by
  unfold DotDims.rhsIdx
  rw [dif_neg (show ¬(2 : Fin S256x32x3.rank) ∈ dot_S256x192x32_S256x32x3_S256x192x3_2_1_1_2_0_0.rhsBatch by decide),
    dif_pos (show (2 : Fin S256x32x3.rank) ∈ dot_S256x192x32_S256x32x3_S256x192x3_2_1_1_2_0_0.rhsNonContracting by decide)]
  rfl

/-- The contraction of a [256, 192, 32] array with a [256, 32, 3] one into a zero accumulator, at entry (b, u, d): the sum over the 32 contracted positions. -/
theorem matmul3_apply (L : FVec Ideal S256x192x32 .bf16) (R : FVec Ideal S256x32x3 .bf16) (b : Fin 256) (u : Fin 192) (d : Fin 3) :
    matmul dot_S256x192x32_S256x32x3_S256x192x3_2_1_1_2_0_0 none L R (constant S256x192x3 .f32 0x00000000#32) (ix3 b u d)
      = ∑ k : Fin 32, L (ix3 b u k) * R (ix3 b k d) := by
  simp only [matmul]
  rw [Ideal.matmul_constant_zero_apply, ← Equiv.sum_comp (ValueIdx.contrEquiv1 dot_S256x192x32_S256x32x3_S256x192x3_2_1_1_2_0_0 32 rfl rfl).symm]
  refine Finset.sum_congr rfl fun k _ => ?_
  have hk := ValueIdx.contrEquiv1_symm_val dot_S256x192x32_S256x32x3_S256x192x3_2_1_1_2_0_0 32 rfl rfl k
  have el : dot_S256x192x32_S256x32x3_S256x192x3_2_1_1_2_0_0.lhsIdx (ix3 b u d) ((ValueIdx.contrEquiv1 dot_S256x192x32_S256x32x3_S256x192x3_2_1_1_2_0_0 32 rfl rfl).symm k) = ix3 b u k :=
    funext fun a => Fin.ext (by
      match a with
      | ⟨0, _⟩ => exact lhs3_0 _ _
      | ⟨1, _⟩ => exact lhs3_1 _ _
      | ⟨2, _⟩ => exact (lhs3_2 _ _).trans hk)
  have er : dot_S256x192x32_S256x32x3_S256x192x3_2_1_1_2_0_0.rhsIdx (ix3 b u d) ((ValueIdx.contrEquiv1 dot_S256x192x32_S256x32x3_S256x192x3_2_1_1_2_0_0 32 rfl rfl).symm k) = ix3 b k d :=
    funext fun a => Fin.ext (by
      match a with
      | ⟨0, _⟩ => exact rhs3_0 _ _
      | ⟨1, _⟩ => exact (rhs3_1 _ _).trans hk
      | ⟨2, _⟩ => exact rhs3_2 _ _)
  rw [el, er]

/-! The operand indices of the contraction into [256, 192, 1], coordinate by coordinate: the batch row and the free
    coordinate come from the result index, the contracted coordinate from the contraction index. -/

theorem lhs1_0 (i : S256x192x1.Idx) (q : dot_S256x192x32_S256x32x1_S256x192x1_2_1_1_2_0_0.contr.Idx) :
    (dot_S256x192x32_S256x32x1_S256x192x1_2_1_1_2_0_0.lhsIdx i q 0).val = (i 0).val := by
  unfold DotDims.lhsIdx
  rw [dif_pos (show (0 : Fin S256x192x32.rank) ∈ dot_S256x192x32_S256x32x1_S256x192x1_2_1_1_2_0_0.lhsBatch by decide)]
  rfl

theorem lhs1_1 (i : S256x192x1.Idx) (q : dot_S256x192x32_S256x32x1_S256x192x1_2_1_1_2_0_0.contr.Idx) :
    (dot_S256x192x32_S256x32x1_S256x192x1_2_1_1_2_0_0.lhsIdx i q 1).val = (i 1).val := by
  unfold DotDims.lhsIdx
  rw [dif_neg (show ¬(1 : Fin S256x192x32.rank) ∈ dot_S256x192x32_S256x32x1_S256x192x1_2_1_1_2_0_0.lhsBatch by decide),
    dif_pos (show (1 : Fin S256x192x32.rank) ∈ dot_S256x192x32_S256x32x1_S256x192x1_2_1_1_2_0_0.lhsNonContracting by decide)]
  rfl

theorem lhs1_2 (i : S256x192x1.Idx) (q : dot_S256x192x32_S256x32x1_S256x192x1_2_1_1_2_0_0.contr.Idx) :
    (dot_S256x192x32_S256x32x1_S256x192x1_2_1_1_2_0_0.lhsIdx i q 2).val = (q ⟨0, by decide⟩).val :=
  dot_S256x192x32_S256x32x1_S256x192x1_2_1_1_2_0_0.lhsIdx_val_of_single rfl i q

theorem rhs1_0 (i : S256x192x1.Idx) (q : dot_S256x192x32_S256x32x1_S256x192x1_2_1_1_2_0_0.contr.Idx) :
    (dot_S256x192x32_S256x32x1_S256x192x1_2_1_1_2_0_0.rhsIdx i q 0).val = (i 0).val := by
  unfold DotDims.rhsIdx
  rw [dif_pos (show (0 : Fin S256x32x1.rank) ∈ dot_S256x192x32_S256x32x1_S256x192x1_2_1_1_2_0_0.rhsBatch by decide)]
  rfl

theorem rhs1_1 (i : S256x192x1.Idx) (q : dot_S256x192x32_S256x32x1_S256x192x1_2_1_1_2_0_0.contr.Idx) :
    (dot_S256x192x32_S256x32x1_S256x192x1_2_1_1_2_0_0.rhsIdx i q 1).val = (q ⟨0, by decide⟩).val :=
  dot_S256x192x32_S256x32x1_S256x192x1_2_1_1_2_0_0.rhsIdx_val_of_single rfl i q

theorem rhs1_2 (i : S256x192x1.Idx) (q : dot_S256x192x32_S256x32x1_S256x192x1_2_1_1_2_0_0.contr.Idx) :
    (dot_S256x192x32_S256x32x1_S256x192x1_2_1_1_2_0_0.rhsIdx i q 2).val = (i 2).val := by
  unfold DotDims.rhsIdx
  rw [dif_neg (show ¬(2 : Fin S256x32x1.rank) ∈ dot_S256x192x32_S256x32x1_S256x192x1_2_1_1_2_0_0.rhsBatch by decide),
    dif_pos (show (2 : Fin S256x32x1.rank) ∈ dot_S256x192x32_S256x32x1_S256x192x1_2_1_1_2_0_0.rhsNonContracting by decide)]
  rfl

/-- The contraction of a [256, 192, 32] array with a [256, 32, 1] one into a zero accumulator, at entry (b, u, d): the sum over the 32 contracted positions. -/
theorem matmul1_apply (L : FVec Ideal S256x192x32 .bf16) (R : FVec Ideal S256x32x1 .bf16) (b : Fin 256) (u : Fin 192) (d : Fin 1) :
    matmul dot_S256x192x32_S256x32x1_S256x192x1_2_1_1_2_0_0 none L R (constant S256x192x1 .f32 0x00000000#32) (ix3 b u d)
      = ∑ k : Fin 32, L (ix3 b u k) * R (ix3 b k d) := by
  simp only [matmul]
  rw [Ideal.matmul_constant_zero_apply, ← Equiv.sum_comp (ValueIdx.contrEquiv1 dot_S256x192x32_S256x32x1_S256x192x1_2_1_1_2_0_0 32 rfl rfl).symm]
  refine Finset.sum_congr rfl fun k _ => ?_
  have hk := ValueIdx.contrEquiv1_symm_val dot_S256x192x32_S256x32x1_S256x192x1_2_1_1_2_0_0 32 rfl rfl k
  have el : dot_S256x192x32_S256x32x1_S256x192x1_2_1_1_2_0_0.lhsIdx (ix3 b u d) ((ValueIdx.contrEquiv1 dot_S256x192x32_S256x32x1_S256x192x1_2_1_1_2_0_0 32 rfl rfl).symm k) = ix3 b u k :=
    funext fun a => Fin.ext (by
      match a with
      | ⟨0, _⟩ => exact lhs1_0 _ _
      | ⟨1, _⟩ => exact lhs1_1 _ _
      | ⟨2, _⟩ => exact (lhs1_2 _ _).trans hk)
  have er : dot_S256x192x32_S256x32x1_S256x192x1_2_1_1_2_0_0.rhsIdx (ix3 b u d) ((ValueIdx.contrEquiv1 dot_S256x192x32_S256x32x1_S256x192x1_2_1_1_2_0_0 32 rfl rfl).symm k) = ix3 b k d :=
    funext fun a => Fin.ext (by
      match a with
      | ⟨0, _⟩ => exact rhs1_0 _ _
      | ⟨1, _⟩ => exact (rhs1_1 _ _).trans hk
      | ⟨2, _⟩ => exact rhs1_2 _ _)
  rw [el, er]

/-- The stored block at entry (b, u, d), for a knot row `v2` that holds the knot vector. -/
theorem pay_apply (v110 : Vec Ideal S256x32x3 .f32) (v111 : Vec Ideal S256x32x1 .f32) (v0 : Vec Ideal S256x192 .f32) (v2 : Vec Ideal S1x128 .f32)
    (hK : ∀ (n : Nat) (h : n < 128), v2 (ix2 (0 : Fin 1) ⟨n, h⟩) = K n) (b : Fin 256) (u : Fin 192) (d : Fin 3) :
    k0_pay1 (F := Ideal) (k0_pay7 (k0_pay2 v0) (k0_pay3 v2) (k0_pay4 v0 v2) (k0_pay5 v0 v2)) (k0_pay8 (k0_pay2 v0) (k0_pay3 v2) (k0_pay4 v0 v2) (k0_pay5 v0 v2)) v110 v111 (ix3 b u d)
      = row (v0 (ix2 b u)) (fun k => v110 (ix3 b k d)) (fun k => v111 (ix3 b k (0 : Fin 1))) := by
  have h1 := pay2_apply v0 b u
  have h3 := knot3 v2 hK
  have h47 := pay4_apply v0 v2 hK b u
  have h52 := pay5_apply v0 v2 hK b u
  unfold k0_pay1
  simp only [divf_apply, addf_apply, mulf_apply, truncf_apply, broadcast_apply, eps_def, matmul3_apply, matmul1_apply,
    Lay.bcast_ab1_abn, pay7_apply _ _ _ _ _ b u h1 h3 h47 h52, pay8_apply _ _ _ _ _ b u h1 h3 h47 h52]
  unfold row lvl3 lvl
  rfl

end Cert.KernelIdeal.Pay

end
-- ==== Proof.KernelValue.lean ====
/-
  The kernel's result array, entry by entry. The grid's point t works on batch rows 256·t … 256·t + 255: its three
  argument blocks are those rows of cp, w and ub, its fourth block is the whole knot row (a constant the program lays
  out before the call), and what it writes back is, at (b, u, d), the rational curve point of row 256·t + b at its
  parameter u. The 32 blocks tile the [8192, 192, 3] array, so the array ends as ONE function of the arguments; the
  program's last line re-lays it as [8192, 192, 3, 1].
-/
import proofs.«139278_j36618891166097_1_alg».proof.Proof.Gen.KernelIdeal.Frame
import proofs.«139278_j36618891166097_1_alg».proof.Proof.Spec
import proofs.«139278_j36618891166097_1_alg».proof.Proof.Layout
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spline

variable (m : (ℓ : Loc nD τ sig) → Buf (Elt Ideal) ℓ) (ρ : Dev nD → PrngReg)

/-- What the body stores, at an entry of its block, for a knot row that holds the knot vector: the rational curve
    point of the block's row and parameter. -/
def PayAt : Prop :=
  ∀ (v110 : Vec Ideal S256x32x3 .f32) (v111 : Vec Ideal S256x32x1 .f32) (v0 : Vec Ideal S256x192 .f32) (v2 : Vec Ideal S1x128 .f32),
    (∀ (n : Nat) (h : n < 128), v2 (ix2 (0 : Fin 1) ⟨n, h⟩) = K n) → ∀ (b : Fin 256) (u : Fin 192) (d : Fin 3),
    k0_pay1 (F := Ideal) (k0_pay7 (k0_pay2 v0) (k0_pay3 v2) (k0_pay4 v0 v2) (k0_pay5 v0 v2)) (k0_pay8 (k0_pay2 v0) (k0_pay3 v2) (k0_pay4 v0 v2) (k0_pay5 v0 v2)) v110 v111 (ix3 b u d)
      = row (v0 (ix2 b u)) (fun k => v110 (ix3 b k d)) (fun k => v111 (ix3 b k (0 : Fin 1)))

/-- The region's result array [8192, 192, 3] as a function of the argument arrays. -/
def G3 (c : Dev nD) : S8192x192x3.Idx → EReal := fun i =>
  row ((m ((c : Thread nD τ).loc main_arg2) : S8192x192.Idx → EReal) (ix2 (i 0) (i 1)))
    (fun k => (m ((c : Thread nD τ).loc main_arg0) : S8192x32x3.Idx → EReal) (ix3 (i 0) k (i 2)))
    (fun k => (m ((c : Thread nD τ).loc main_arg1) : S8192x32x1.Idx → EReal) (ix3 (i 0) k (0 : Fin 1)))

/-- `G3` at an index given by its coordinates. -/
theorem G3_apply (c : Dev nD) (i : S8192x192x3.Idx) (B : Fin 8192) (U : Fin 192) (D : Fin 3)
    (h0 : (i 0).val = B.val) (h1 : (i 1).val = U.val) (h2 : (i 2).val = D.val) :
    G3 m c i = row ((m ((c : Thread nD τ).loc main_arg2) : S8192x192.Idx → EReal) (ix2 B U))
      (fun k => (m ((c : Thread nD τ).loc main_arg0) : S8192x32x3.Idx → EReal) (ix3 B k D))
      (fun k => (m ((c : Thread nD τ).loc main_arg1) : S8192x32x1.Idx → EReal) (ix3 B k (0 : Fin 1))) := by
  obtain rfl : i = ix3 B U D := funext fun a => Fin.ext (by
    match a with
    | ⟨0, _⟩ => exact h0
    | ⟨1, _⟩ => exact h1
    | ⟨2, _⟩ => exact h2)
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: every batch-tiled window's block index is (t, 0, …), the knot row's (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The program's knot constant, word by word, is the specification's knot vector (ones past position 35). -/
theorem lit_eq : ∀ n : Fin 128, lit0 n = knotW n.val := by decide

/-- The knot row as the region finds it: the constant the host line before the call writes. -/
theorem knots_arr (c : Dev nD) :
    (V m c main_cst : S1x128.Idx → EReal) = fun i => Ideal.ofBits .f32 (lit0 (S1x128.rowMajor i)) := by
  show StableHlo.after hostOps0 (fun b => m (c, b)) (Proc.devRef .tc main_cst) = _
  after_results
  rfl

/-- Point t's block of cp is rows 256·t … of cp. -/
theorem iblk0_apply (c : Dev nD) (t : Fin cfg0.N) (b : Fin 256) (k : Fin 32) (d : Fin 3) (B : Fin 8192) (D : Fin 3)
    (hB : B.val = t.val * 256 + b.val) (hD : D.val = d.val) :
    (iblk m c 0 t : Vec Ideal S256x32x3 .f32) (ix3 b k d)
      = (m ((c : Thread nD τ).loc main_arg0) : S8192x32x3.Idx → EReal) (ix3 B k D) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 256 + 1 * b.val = B.val; rw [e0, hB]; omega
  | ⟨1, _⟩ => show win0_0.index t (1 : Fin 3) * 32 + 1 * k.val = k.val; rw [e1]; omega
  | ⟨2, _⟩ => show win0_0.index t (2 : Fin 3) * 3 + 1 * d.val = D.val; rw [e2, hD]; omega

/-- Point t's block of w is rows 256·t … of w. -/
theorem iblk1_apply (c : Dev nD) (t : Fin cfg0.N) (b : Fin 256) (k : Fin 32) (B : Fin 8192)
    (hB : B.val = t.val * 256 + b.val) :
    (iblk m c 1 t : Vec Ideal S256x32x1 .f32) (ix3 b k (0 : Fin 1))
      = (m ((c : Thread nD τ).loc main_arg1) : S8192x32x1.Idx → EReal) (ix3 B k (0 : Fin 1)) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 256 + 1 * b.val = B.val; rw [e0, hB]; omega
  | ⟨1, _⟩ => show win0_1.index t (1 : Fin 3) * 32 + 1 * k.val = k.val; rw [e1]; omega
  | ⟨2, _⟩ => show win0_1.index t (2 : Fin 3) * 1 + 1 * 0 = 0; rw [e2]

/-- Point t's block of ub is rows 256·t … of ub. -/
theorem iblk2_apply (c : Dev nD) (t : Fin cfg0.N) (b : Fin 256) (u : Fin 192) (B : Fin 8192) (U : Fin 192)
    (hB : B.val = t.val * 256 + b.val) (hU : U.val = u.val) :
    (iblk m c 2 t : Vec Ideal S256x192 .f32) (ix2 b u)
      = (m ((c : Thread nD τ).loc main_arg2) : S8192x192.Idx → EReal) (ix2 B U) := by
  obtain ⟨-, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * b.val = B.val; rw [e0, hB]; omega
  | ⟨1, _⟩ => show win0_2.index t (1 : Fin 2) * 192 + 1 * u.val = U.val; rw [e1, hU]; omega

/-- Every point's knot block is the knot vector. -/
theorem iblk3_apply (c : Dev nD) (t : Fin cfg0.N) (n : Nat) (h : n < 128) :
    (iblk m c 3 t : Vec Ideal S1x128 .f32) (ix2 (0 : Fin 1) ⟨n, h⟩) = K n := by
  obtain ⟨-, -, -, -, -, -, -, -, e0, e1, -⟩ := idx_facts t
  unfold iblk
  rw [View.read_apply]
  show (V m c main_cst : S1x128.Idx → EReal) _ = _
  rw [knots_arr]
  show Ideal.ofBits .f32 (lit0 (S1x128.rowMajor _)) = Ideal.ofBits .f32 (knotW n)
  congr 1
  refine Eq.trans (congrArg lit0 (Fin.ext ?_)) (lit_eq ⟨n, h⟩)
  rw [Shape.rowMajor_val_two]
  show (win0_3.index t (0 : Fin 2) * 1 + 1 * 0) * 128 + (win0_3.index t (1 : Fin 2) * 128 + 1 * n) = n
  rw [e0, e1]; omega

/-- WHAT POINT t WRITES BACK is block t of `G3`. -/
theorem flushed_eq (hpay : PayAt) (c : Dev nD) (t : Fin cfg0.N) :
    (dats m 0 c).flushed 4 t = ((cfg0.win 4).blk t).view.read (Elt Ideal) (G3 m c) := by
  show (cfg0.win 4).cut (grid0.coords t) ((dats m 0 c).after 4 t) = _
  rw [after0_4]
  unfold out0_4
  rw [View.canon_unit_zero hz3]
  simp only [View.ld_unit_zero (S := S256x192) hz2, View.ld_unit_zero (S := S1x128) hz2,
    View.ld_unit_zero (S := S256x32x3) hz3, View.ld_unit_zero (S := S256x32x1) hz3]
  obtain ⟨-, -, -, -, -, -, -, -, -, -, e0, e1, e2⟩ := idx_facts t
  funext y
  obtain ⟨b, u, d, rfl⟩ : ∃ (b : Fin 256) (u : Fin 192) (d : Fin 3), y = ix3 b u d := ⟨y 0, y 1, y 2, eq_ix3 y⟩
  refine (hpay (iblk m c 0 t) (iblk m c 1 t) (iblk m c 2 t) (iblk m c 3 t) (iblk3_apply m c t) b u d).trans ?_
  rw [View.read_apply]
  have hE0 : ((((cfg0.win 4).blk t).view.emb (ix3 b u d)) 0).val = t.val * 256 + b.val := by
    show win0_4.index t (0 : Fin 3) * 256 + 1 * b.val = _; rw [e0]; omega
  have hE1 : ((((cfg0.win 4).blk t).view.emb (ix3 b u d)) 1).val = u.val := by
    show win0_4.index t (1 : Fin 3) * 192 + 1 * u.val = _; rw [e1]; omega
  have hE2 : ((((cfg0.win 4).blk t).view.emb (ix3 b u d)) 2).val = d.val := by
    show win0_4.index t (2 : Fin 3) * 3 + 1 * d.val = _; rw [e2]; omega
  have hN : cfg0.N = 32 := N_0
  have hb : t.val * 256 + b.val < 8192 := by have := t.isLt; omega
  rw [G3_apply m c _ ⟨t.val * 256 + b.val, hb⟩ u d hE0 hE1 hE2, iblk2_apply m c t b u ⟨t.val * 256 + b.val, hb⟩ u rfl rfl]
  congr 1
  · funext k; exact iblk0_apply m c t b k d ⟨t.val * 256 + b.val, hb⟩ d rfl rfl
  · funext k; exact iblk1_apply m c t b k ⟨t.val * 256 + b.val, hb⟩ rfl

/-- An index of the array is in point t's block iff each coordinate is in the block's range on its axis. -/
theorem mem_blk (t : Fin cfg0.N) (i : S8192x192x3.Idx) :
    i ∈ ((cfg0.win 4).blk t).view.set ↔ ∀ a : Fin 3, win0_4.index t a * S256x192x3.size a ≤ (i a).val ∧ (i a).val < win0_4.index t a * S256x192x3.size a + S256x192x3.size a := by
  show i ∈ ((View.whole main_v0).slice (win0_4.rect t)).set ↔ _
  rw [View.set_slice_whole, Rect.mem_set_unit]
  exact Iff.rfl

/-- Every entry of the array is in the block of the point that works on its batch row. -/
theorem cover (i : S8192x192x3.Idx) :
    ∃ t : Fin cfg0.N, (cfg0.win 4).flush t = true ∧ i ∈ ((cfg0.win 4).blk t).view.set := by
  have h0 : (i 0).val < 8192 := (i 0).isLt
  have h1 : (i 1).val < 192 := (i 1).isLt
  have h2 : (i 2).val < 3 := (i 2).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 256 ≤ (i 0).val ∧ (i 0).val < win0_4.index t (0 : Fin 3) * 256 + 256; rw [e0, ht]; omega
  | ⟨1, _⟩ => show win0_4.index t (1 : Fin 3) * 192 ≤ (i 1).val ∧ (i 1).val < win0_4.index t (1 : Fin 3) * 192 + 192; rw [e1]; omega
  | ⟨2, _⟩ => show win0_4.index t (2 : Fin 3) * 3 ≤ (i 2).val ∧ (i 2).val < win0_4.index t (2 : Fin 3) * 3 + 3; rw [e2]; omega

/-- THE ARRAY after the region: `G3` of the arguments. -/
theorem final (hpay : PayAt) (c : Dev nD) : (dats m 0 c).arrAt 4 cfg0.N = G3 m c :=
  (dats m 0 c).arrAt_eq_of_cover 4 (G3 m c) (fun t _ => flushed_eq m hpay c t) cover

/-- The program's last line lays the array out as [8192, 192, 3, 1]: the result is the specification's `G`. -/
theorem tail_eq (hpay : PayAt) (c : Dev nD) :
    Pipeline.afterTail₀ cfgs (dats m) 0 (V0 m) [hostOps1] c main_v1
      = G (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0) = G3 m c :=
    (Pipeline.withArrays_arr spec0 launch0.win.arr_inj c _ _ 4).trans (final m hpay c)
  rw [hw]
  funext i
  rw [Lay.bid_abc_abc1]
  rfl

/-- The run, read: the result at `G` of the arguments, the arguments unchanged. -/
theorem run (hpay : PayAt) : θ_run defs (onTc (τ := τ) (main (F := Ideal))) ⟨m, fun _ => 0, ρ⟩ fun r => ∀ c : Dev nD,
      r.2.mem ((c.tc : Thread nD τ).loc main_v1) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 (by decide)).trans (tail_eq m hpay c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefOps.lean ====
import proofs.«139278_j36618891166097_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order. -/
abbrev ops : List (HloOp τ sig (Elt F)) :=
  [ nullary main_cst (fun i => FloatOps.ofBits .f32 (lit0 (S36.rowMajor i))),
    unary main_arg2 main_v0 (broadcastInDim S8192x192x1 ![0, 1] bcast_S8192x192_S8192x192x1_0_1 : (⟨S8192x192, .f32⟩ : BufTy).Contents (Elt F) → (⟨S8192x192x1, .f32⟩ : BufTy).Contents (Elt F)),
    unary main_cst main_v1 ((extractStridedSlice S35 ![0] · slices_S36_S35_0) : (⟨S36, .f32⟩ : BufTy).Contents (Elt F) → (⟨S35, .f32⟩ : BufTy).Contents (Elt F)),
    unary main_v1 main_v2 (broadcastInDim S1x1x35 ![2] bcast_S35_S1x1x35_2 : (⟨S35, .f32⟩ : BufTy).Contents (Elt F) → (⟨S1x1x35, .f32⟩ : BufTy).Contents (Elt F)),
    unary main_v2 main_v3 (broadcastInDim S8192x192x35 ![0, 1, 2] bcast_S1x1x35_S8192x192x35_0_1_2 : (⟨S1x1x35, .f32⟩ : BufTy).Contents (Elt F) → (⟨S8192x192x35, .f32⟩ : BufTy).Contents (Elt F)),
    unary main_v0 main_v4 (broadcastInDim S8192x192x35 ![0, 1, 2] bcast_S8192x192x1_S8192x192x35_0_1_2 : (⟨S8192x192x1, .f32⟩ : BufTy).Contents (Elt F) → (⟨S8192x192x35, .f32⟩ : BufTy).Contents (Elt F)),
    binary main_v3 main_v4 main_v5 (cmpf .ole : (⟨S8192x192x35, .f32⟩ : BufTy).Contents (Elt F) → (⟨S8192x192x35, .f32⟩ : BufTy).Contents (Elt F) → (⟨S8192x192x35, .i1⟩ : BufTy).Contents (Elt F)),
    unary main_cst main_v6 ((extractStridedSlice S35 ![1] · slices_S36_S35_1) : (⟨S36, .f32⟩ : BufTy).Contents (Elt F) → (⟨S35, .f32⟩ : BufTy).Contents (Elt F)),
    unary main_v6 main_v7 (broadcastInDim S1x1x35 ![2] bcast_S35_S1x1x35_2 : (⟨S35, .f32⟩ : BufTy).Contents (Elt F) → (⟨S1x1x35, .f32⟩ : BufTy).Contents (Elt F)),
    unary main_v0 main_v8 (broadcastInDim S8192x192x35 ![0, 1, 2] bcast_S8192x192x1_S8192x192x35_0_1_2 : (⟨S8192x192x1, .f32⟩ : BufTy).Contents (Elt F) → (⟨S8192x192x35, .f32⟩ : BufTy).Contents (Elt F)),
    unary main_v7 main_v9 (broadcastInDim S8192x192x35 ![0, 1, 2] bcast_S1x1x35_S8192x192x35_0_1_2 : (⟨S1x1x35, .f32⟩ : BufTy).Contents (Elt F) → (⟨S8192x192x35, .f32⟩ : BufTy).Contents (Elt F)),
    binary main_v8 main_v9 main_v10 (cmpf .olt : (⟨S8192x192x35, .f32⟩ : BufTy).Contents (Elt F) → (⟨S8192x192x35, .f32⟩ : BufTy).Contents (Elt F) → (⟨S8192x192x35, .i1⟩ : BufTy).Contents (Elt F)),
    binary main_v5 main_v10 main_v11 (andi : (⟨S8192x192x35, .i1⟩ : BufTy).Contents (Elt F) → (⟨S8192x192x35, .i1⟩ : BufTy).Contents (Elt F) → (⟨S8192x192x35, .i1⟩ : BufTy).Contents (Elt F)),
    unary main_v11 main_v12 (uitofp .f32 : (⟨S8192x192x35, .i1⟩ : BufTy).Contents (Elt F) → (⟨S8192x192x35, .f32⟩ : BufTy).Contents (Elt F)),
    unary main_cst main_v13 ((extractStridedSlice S34 ![0] · slices_S36_S34_0) : (⟨S36, .f32⟩ : BufTy).Contents (Elt F) → (⟨S34, .f32⟩ : BufTy).Contents (Elt F)),
    unary main_v13 main_v14 (broadcastInDim S1x1x34 ![2] bcast_S34_S1x1x34_2 : (⟨S34, .f32⟩ : BufTy).Contents (Elt F) → (⟨S1x1x34, .f32⟩ : BufTy).Contents (Elt F)),
    unary main_v0 main_v15 (broadcastInDim S8192x192x34 ![0, 1, 2] bcast_S8192x192x1_S8192x192x34_0_1_2 : (⟨S8192x192x1, .f32⟩ : BufTy).Contents (Elt F) → (⟨S8192x192x34, .f32⟩ : BufTy).Contents (Elt F)),
    unary main_v14 main_v16 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v15 main_v16 main_v17 (subf : (⟨S8192x192x34, .f32⟩ : BufTy).Contents (Elt F) → (⟨S8192x192x34, .f32⟩ : BufTy).Contents (Elt F) → (⟨S8192x192x34, .f32⟩ : BufTy).Contents (Elt F)),
    unary main_cst main_v18 ((extractStridedSlice S34 ![1] · slices_S36_S34_1) : (⟨S36, .f32⟩ : BufTy).Contents (Elt F) → (⟨S34, .f32⟩ : BufTy).Contents (Elt F)),
    unary main_cst main_v19 ((extractStridedSlice S34 ![0] · slices_S36_S34_0) : (⟨S36, .f32⟩ : BufTy).Contents (Elt F) → (⟨S34, .f32⟩ : BufTy).Contents (Elt F)),
    binary main_v18 main_v19 main_v20 (subf : (⟨S34, .f32⟩ : BufTy).Contents (Elt F) → (⟨S34, .f32⟩ : BufTy).Contents (Elt F) → (⟨S34, .f32⟩ : BufTy).Contents (Elt F)),
    nullary main_cst_0 (constant S_ .f32 0x33D6BF95#32),
    unary main_cst_0 main_v21 (broadcastInDim S34 ![] bcast_S_S34 : (⟨S_, .f32⟩ : BufTy).Contents (Elt F) → (⟨S34, .f32⟩ : BufTy).Contents (Elt F)),
    binary main_v20 main_v21 main_v22 (addf : (⟨S34, .f32⟩ : BufTy).Contents (Elt F) → (⟨S34, .f32⟩ : BufTy).Contents (Elt F) → (⟨S34, .f32⟩ : BufTy).Contents (Elt F)),
    unary main_v22 main_v23 (broadcastInDim S1x1x34 ![2] bcast_S34_S1x1x34_2 : (⟨S34, .f32⟩ : BufTy).Contents (Elt F) → (⟨S1x1x34, .f32⟩ : BufTy).Contents (Elt F)),
    unary main_v23 main_v24 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v17 main_v24 main_v25 (Host.divf : (⟨S8192x192x34, .f32⟩ : BufTy).Contents (Elt F) → (⟨S8192x192x34, .f32⟩ : BufTy).Contents (Elt F) → (⟨S8192x192x34, .f32⟩ : BufTy).Contents (Elt F)),
    unary main_v12 main_v26 ((extractStridedSlice S8192x192x34 ![0, 0, 0] · slices_S8192x192x35_S8192x192x34_0_0_0) : (⟨S8192x192x35, .f32⟩ : BufTy).Contents (Elt F) → (⟨S8192x192x34, .f32⟩ : BufTy).Contents (Elt F)),
    binary main_v25 main_v26 main_v27 (mulf : (⟨S8192x192x34, .f32⟩ : BufTy).Contents (Elt F) → (⟨S8192x192x34, .f32⟩ : BufTy).Contents (Elt F) → (⟨S8192x192x34, .f32⟩ : BufTy).Contents (Elt F)),
    unary main_cst main_v28 ((extractStridedSlice S34 ![2] · slices_S36_S34_2) : (⟨S36, .f32⟩ : BufTy).Contents (Elt F) → (⟨S34, .f32⟩ : BufTy).Contents (Elt F)),
    unary main_v28 main_v29 (broadcastInDim S1x1x34 ![2] bcast_S34_S1x1x34_2 : (⟨S34, .f32⟩ : BufTy).Contents (Elt F) → (⟨S1x1x34, .f32⟩ : BufTy).Contents (Elt F)),
    unary main_v29 main_v30 (broadcastInDim S8192x192x34 ![0, 1, 2] bcast_S1x1x34_S8192x192x34_0_1_2 : (⟨S1x1x34, .f32⟩ : BufTy).Contents (Elt F) → (⟨S8192x192x34, .f32⟩ : BufTy).Contents (Elt F)),
    unary main_v0 main_v31 (broadcastInDim S8192x192x34 ![0, 1, 2] bcast_S8192x192x1_S8192x192x34_0_1_2 : (⟨S8192x192x1, .f32⟩ : BufTy).Contents (Elt F) → (⟨S8192x192x34, .f32⟩ : BufTy).Contents (Elt F)),
    binary main_v30 main_v31 main_v32 (subf : (⟨S8192x192x34, .f32⟩ : BufTy).Contents (Elt F) → (⟨S8192x192x34, .f32⟩ : BufTy).Contents (Elt F) → (⟨S8192x192x34, .f32⟩ : BufTy).Contents (Elt F)),
    unary main_cst main_v33 ((extractStridedSlice S34 ![2] · slices_S36_S34_2) : (⟨S36, .f32⟩ : BufTy).Contents (Elt F) → (⟨S34, .f32⟩ : BufTy).Contents (Elt F)),
    unary main_cst main_v34 ((extractStridedSlice S34 ![1] · slices_S36_S34_1) : (⟨S36, .f32⟩ : BufTy).Contents (Elt F) → (⟨S34, .f32⟩ : BufTy).Contents (Elt F)),
    binary main_v33 main_v34 main_v35 (subf : (⟨S34, .f32⟩ : BufTy).Contents (Elt F) → (⟨S34, .f32⟩ : BufTy).Contents (Elt F) → (⟨S34, .f32⟩ : BufTy).Contents (Elt F)),
    nullary main_cst_1 (constant S_ .f32 0x33D6BF95#32),
    unary main_cst_1 main_v36 (broadcastInDim S34 ![] bcast_S_S34 : (⟨S_, .f32⟩ : BufTy).Contents (Elt F) → (⟨S34, .f32⟩ : BufTy).Contents (Elt F)),
    binary main_v35 main_v36 main_v37 (addf : (⟨S34, .f32⟩ : BufTy).Contents (Elt F) → (⟨S34, .f32⟩ : BufTy).Contents (Elt F) → (⟨S34, .f32⟩ : BufTy).Contents (Elt F)),
    unary main_v37 main_v38 (broadcastInDim S1x1x34 ![2] bcast_S34_S1x1x34_2 : (⟨S34, .f32⟩ : BufTy).Contents (Elt F) → (⟨S1x1x34, .f32⟩ : BufTy).Contents (Elt F)),
    unary main_v38 main_v39 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v32 main_v39 main_v40 (Host.divf : (⟨S8192x192x34, .f32⟩ : BufTy).Contents (Elt F) → (⟨S8192x192x34, .f32⟩ : BufTy).Contents (Elt F) → (⟨S8192x192x34, .f32⟩ : BufTy).Contents (Elt F)),
    unary main_v12 main_v41 ((extractStridedSlice S8192x192x34 ![0, 0, 1] · slices_S8192x192x35_S8192x192x34_0_0_1) : (⟨S8192x192x35, .f32⟩ : BufTy).Contents (Elt F) → (⟨S8192x192x34, .f32⟩ : BufTy).Contents (Elt F)),
    binary main_v40 main_v41 main_v42 (mulf : (⟨S8192x192x34, .f32⟩ : BufTy).Contents (Elt F) → (⟨S8192x192x34, .f32⟩ : BufTy).Contents (Elt F) → (⟨S8192x192x34, .f32⟩ : BufTy).Contents (Elt F)),
    binary main_v27 main_v42 main_v43 (addf : (⟨S8192x192x34, .f32⟩ : BufTy).Contents (Elt F) → (⟨S8192x192x34, .f32⟩ : BufTy).Contents (Elt F) → (⟨S8192x192x34, .f32⟩ : BufTy).Contents (Elt F)),
    unary main_cst main_v44 ((extractStridedSlice S33 ![0] · slices_S36_S33_0) : (⟨S36, .f32⟩ : BufTy).Contents (Elt F) → (⟨S33, .f32⟩ : BufTy).Contents (Elt F)),
    unary main_v44 main_v45 (broadcastInDim S1x1x33 ![2] bcast_S33_S1x1x33_2 : (⟨S33, .f32⟩ : BufTy).Contents (Elt F) → (⟨S1x1x33, .f32⟩ : BufTy).Contents (Elt F)),
    unary main_v0 main_v46 (broadcastInDim S8192x192x33 ![0, 1, 2] bcast_S8192x192x1_S8192x192x33_0_1_2 : (⟨S8192x192x1, .f32⟩ : BufTy).Contents (Elt F) → (⟨S8192x192x33, .f32⟩ : BufTy).Contents (Elt F)),
    unary main_v45 main_v47 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v46 main_v47 main_v48 (subf : (⟨S8192x192x33, .f32⟩ : BufTy).Contents (Elt F) → (⟨S8192x192x33, .f32⟩ : BufTy).Contents (Elt F) → (⟨S8192x192x33, .f32⟩ : BufTy).Contents (Elt F)),
    unary main_cst main_v49 ((extractStridedSlice S33 ![2] · slices_S36_S33_2) : (⟨S36, .f32⟩ : BufTy).Contents (Elt F) → (⟨S33, .f32⟩ : BufTy).Contents (Elt F)),
    unary main_cst main_v50 ((extractStridedSlice S33 ![0] · slices_S36_S33_0) : (⟨S36, .f32⟩ : BufTy).Contents (Elt F) → (⟨S33, .f32⟩ : BufTy).Contents (Elt F)),
    binary main_v49 main_v50 main_v51 (subf : (⟨S33, .f32⟩ : BufTy).Contents (Elt F) → (⟨S33, .f32⟩ : BufTy).Contents (Elt F) → (⟨S33, .f32⟩ : BufTy).Contents (Elt F)),
    nullary main_cst_2 (constant S_ .f32 0x33D6BF95#32),
    unary main_cst_2 main_v52 (broadcastInDim S33 ![] bcast_S_S33 : (⟨S_, .f32⟩ : BufTy).Contents (Elt F) → (⟨S33, .f32⟩ : BufTy).Contents (Elt F)),
    binary main_v51 main_v52 main_v53 (addf : (⟨S33, .f32⟩ : BufTy).Contents (Elt F) → (⟨S33, .f32⟩ : BufTy).Contents (Elt F) → (⟨S33, .f32⟩ : BufTy).Contents (Elt F)),
    unary main_v53 main_v54 (broadcastInDim S1x1x33 ![2] bcast_S33_S1x1x33_2 : (⟨S33, .f32⟩ : BufTy).Contents (Elt F) → (⟨S1x1x33, .f32⟩ : BufTy).Contents (Elt F)),
    unary main_v54 main_v55 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v48 main_v55 main_v56 (Host.divf : (⟨S8192x192x33, .f32⟩ : BufTy).Contents (Elt F) → (⟨S8192x192x33, .f32⟩ : BufTy).Contents (Elt F) → (⟨S8192x192x33, .f32⟩ : BufTy).Contents (Elt F)),
    unary main_v43 main_v57 ((extractStridedSlice S8192x192x33 ![0, 0, 0] · slices_S8192x192x34_S8192x192x33_0_0_0) : (⟨S8192x192x34, .f32⟩ : BufTy).Contents (Elt F) → (⟨S8192x192x33, .f32⟩ : BufTy).Contents (Elt F)),
    binary main_v56 main_v57 main_v58 (mulf : (⟨S8192x192x33, .f32⟩ : BufTy).Contents (Elt F) → (⟨S8192x192x33, .f32⟩ : BufTy).Contents (Elt F) → (⟨S8192x192x33, .f32⟩ : BufTy).Contents (Elt F)),
    unary main_cst main_v59 ((extractStridedSlice S33 ![3] · slices_S36_S33_3) : (⟨S36, .f32⟩ : BufTy).Contents (Elt F) → (⟨S33, .f32⟩ : BufTy).Contents (Elt F)),
    unary main_v59 main_v60 (broadcastInDim S1x1x33 ![2] bcast_S33_S1x1x33_2 : (⟨S33, .f32⟩ : BufTy).Contents (Elt F) → (⟨S1x1x33, .f32⟩ : BufTy).Contents (Elt F)),
    unary main_v60 main_v61 (broadcastInDim S8192x192x33 ![0, 1, 2] bcast_S1x1x33_S8192x192x33_0_1_2 : (⟨S1x1x33, .f32⟩ : BufTy).Contents (Elt F) → (⟨S8192x192x33, .f32⟩ : BufTy).Contents (Elt F)),
    unary main_v0 main_v62 (broadcastInDim S8192x192x33 ![0, 1, 2] bcast_S8192x192x1_S8192x192x33_0_1_2 : (⟨S8192x192x1, .f32⟩ : BufTy).Contents (Elt F) → (⟨S8192x192x33, .f32⟩ : BufTy).Contents (Elt F)),
    binary main_v61 main_v62 main_v63 (subf : (⟨S8192x192x33, .f32⟩ : BufTy).Contents (Elt F) → (⟨S8192x192x33, .f32⟩ : BufTy).Contents (Elt F) → (⟨S8192x192x33, .f32⟩ : BufTy).Contents (Elt F)),
    unary main_cst main_v64 ((extractStridedSlice S33 ![3] · slices_S36_S33_3) : (⟨S36, .f32⟩ : BufTy).Contents (Elt F) → (⟨S33, .f32⟩ : BufTy).Contents (Elt F)),
    unary main_cst main_v65 ((extractStridedSlice S33 ![1] · slices_S36_S33_1) : (⟨S36, .f32⟩ : BufTy).Contents (Elt F) → (⟨S33, .f32⟩ : BufTy).Contents (Elt F)),
    binary main_v64 main_v65 main_v66 (subf : (⟨S33, .f32⟩ : BufTy).Contents (Elt F) → (⟨S33, .f32⟩ : BufTy).Contents (Elt F) → (⟨S33, .f32⟩ : BufTy).Contents (Elt F)),
    nullary main_cst_3 (constant S_ .f32 0x33D6BF95#32),
    unary main_cst_3 main_v67 (broadcastInDim S33 ![] bcast_S_S33 : (⟨S_, .f32⟩ : BufTy).Contents (Elt F) → (⟨S33, .f32⟩ : BufTy).Contents (Elt F)),
    binary main_v66 main_v67 main_v68 (addf : (⟨S33, .f32⟩ : BufTy).Contents (Elt F) → (⟨S33, .f32⟩ : BufTy).Contents (Elt F) → (⟨S33, .f32⟩ : BufTy).Contents (Elt F)),
    unary main_v68 main_v69 (broadcastInDim S1x1x33 ![2] bcast_S33_S1x1x33_2 : (⟨S33, .f32⟩ : BufTy).Contents (Elt F) → (⟨S1x1x33, .f32⟩ : BufTy).Contents (Elt F)),
    unary main_v69 main_v70 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v63 main_v70 main_v71 (Host.divf : (⟨S8192x192x33, .f32⟩ : BufTy).Contents (Elt F) → (⟨S8192x192x33, .f32⟩ : BufTy).Contents (Elt F) → (⟨S8192x192x33, .f32⟩ : BufTy).Contents (Elt F)),
    unary main_v43 main_v72 ((extractStridedSlice S8192x192x33 ![0, 0, 1] · slices_S8192x192x34_S8192x192x33_0_0_1) : (⟨S8192x192x34, .f32⟩ : BufTy).Contents (Elt F) → (⟨S8192x192x33, .f32⟩ : BufTy).Contents (Elt F)),
    binary main_v71 main_v72 main_v73 (mulf : (⟨S8192x192x33, .f32⟩ : BufTy).Contents (Elt F) → (⟨S8192x192x33, .f32⟩ : BufTy).Contents (Elt F) → (⟨S8192x192x33, .f32⟩ : BufTy).Contents (Elt F)),
    binary main_v58 main_v73 main_v74 (addf : (⟨S8192x192x33, .f32⟩ : BufTy).Contents (Elt F) → (⟨S8192x192x33, .f32⟩ : BufTy).Contents (Elt F) → (⟨S8192x192x33, .f32⟩ : BufTy).Contents (Elt F)),
    unary main_cst main_v75 ((extractStridedSlice S32 ![0] · slices_S36_S32_0) : (⟨S36, .f32⟩ : BufTy).Contents (Elt F) → (⟨S32, .f32⟩ : BufTy).Contents (Elt F)),
    unary main_v75 main_v76 (broadcastInDim S1x1x32 ![2] bcast_S32_S1x1x32_2 : (⟨S32, .f32⟩ : BufTy).Contents (Elt F) → (⟨S1x1x32, .f32⟩ : BufTy).Contents (Elt F)),
    unary main_v0 main_v77 (broadcastInDim S8192x192x32 ![0, 1, 2] bcast_S8192x192x1_S8192x192x32_0_1_2 : (⟨S8192x192x1, .f32⟩ : BufTy).Contents (Elt F) → (⟨S8192x192x32, .f32⟩ : BufTy).Contents (Elt F)),
    unary main_v76 main_v78 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v77 main_v78 main_v79 (subf : (⟨S8192x192x32, .f32⟩ : BufTy).Contents (Elt F) → (⟨S8192x192x32, .f32⟩ : BufTy).Contents (Elt F) → (⟨S8192x192x32, .f32⟩ : BufTy).Contents (Elt F)),
    unary main_cst main_v80 ((extractStridedSlice S32 ![3] · slices_S36_S32_3) : (⟨S36, .f32⟩ : BufTy).Contents (Elt F) → (⟨S32, .f32⟩ : BufTy).Contents (Elt F)),
    unary main_cst main_v81 ((extractStridedSlice S32 ![0] · slices_S36_S32_0) : (⟨S36, .f32⟩ : BufTy).Contents (Elt F) → (⟨S32, .f32⟩ : BufTy).Contents (Elt F)),
    binary main_v80 main_v81 main_v82 (subf : (⟨S32, .f32⟩ : BufTy).Contents (Elt F) → (⟨S32, .f32⟩ : BufTy).Contents (Elt F) → (⟨S32, .f32⟩ : BufTy).Contents (Elt F)),
    nullary main_cst_4 (constant S_ .f32 0x33D6BF95#32),
    unary main_cst_4 main_v83 (broadcastInDim S32 ![] bcast_S_S32 : (⟨S_, .f32⟩ : BufTy).Contents (Elt F) → (⟨S32, .f32⟩ : BufTy).Contents (Elt F)),
    binary main_v82 main_v83 main_v84 (addf : (⟨S32, .f32⟩ : BufTy).Contents (Elt F) → (⟨S32, .f32⟩ : BufTy).Contents (Elt F) → (⟨S32, .f32⟩ : BufTy).Contents (Elt F)),
    unary main_v84 main_v85 (broadcastInDim S1x1x32 ![2] bcast_S32_S1x1x32_2 : (⟨S32, .f32⟩ : BufTy).Contents (Elt F) → (⟨S1x1x32, .f32⟩ : BufTy).Contents (Elt F)),
    unary main_v85 main_v86 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v79 main_v86 main_v87 (Host.divf : (⟨S8192x192x32, .f32⟩ : BufTy).Contents (Elt F) → (⟨S8192x192x32, .f32⟩ : BufTy).Contents (Elt F) → (⟨S8192x192x32, .f32⟩ : BufTy).Contents (Elt F)),
    unary main_v74 main_v88 ((extractStridedSlice S8192x192x32 ![0, 0, 0] · slices_S8192x192x33_S8192x192x32_0_0_0) : (⟨S8192x192x33, .f32⟩ : BufTy).Contents (Elt F) → (⟨S8192x192x32, .f32⟩ : BufTy).Contents (Elt F)),
    binary main_v87 main_v88 main_v89 (mulf : (⟨S8192x192x32, .f32⟩ : BufTy).Contents (Elt F) → (⟨S8192x192x32, .f32⟩ : BufTy).Contents (Elt F) → (⟨S8192x192x32, .f32⟩ : BufTy).Contents (Elt F)),
    unary main_cst main_v90 ((extractStridedSlice S32 ![4] · slices_S36_S32_4) : (⟨S36, .f32⟩ : BufTy).Contents (Elt F) → (⟨S32, .f32⟩ : BufTy).Contents (Elt F)),
    unary main_v90 main_v91 (broadcastInDim S1x1x32 ![2] bcast_S32_S1x1x32_2 : (⟨S32, .f32⟩ : BufTy).Contents (Elt F) → (⟨S1x1x32, .f32⟩ : BufTy).Contents (Elt F)),
    unary main_v91 main_v92 (broadcastInDim S8192x192x32 ![0, 1, 2] bcast_S1x1x32_S8192x192x32_0_1_2 : (⟨S1x1x32, .f32⟩ : BufTy).Contents (Elt F) → (⟨S8192x192x32, .f32⟩ : BufTy).Contents (Elt F)),
    unary main_v0 main_v93 (broadcastInDim S8192x192x32 ![0, 1, 2] bcast_S8192x192x1_S8192x192x32_0_1_2 : (⟨S8192x192x1, .f32⟩ : BufTy).Contents (Elt F) → (⟨S8192x192x32, .f32⟩ : BufTy).Contents (Elt F)),
    binary main_v92 main_v93 main_v94 (subf : (⟨S8192x192x32, .f32⟩ : BufTy).Contents (Elt F) → (⟨S8192x192x32, .f32⟩ : BufTy).Contents (Elt F) → (⟨S8192x192x32, .f32⟩ : BufTy).Contents (Elt F)),
    unary main_cst main_v95 ((extractStridedSlice S32 ![4] · slices_S36_S32_4) : (⟨S36, .f32⟩ : BufTy).Contents (Elt F) → (⟨S32, .f32⟩ : BufTy).Contents (Elt F)),
    unary main_cst main_v96 ((extractStridedSlice S32 ![1] · slices_S36_S32_1) : (⟨S36, .f32⟩ : BufTy).Contents (Elt F) → (⟨S32, .f32⟩ : BufTy).Contents (Elt F)),
    binary main_v95 main_v96 main_v97 (subf : (⟨S32, .f32⟩ : BufTy).Contents (Elt F) → (⟨S32, .f32⟩ : BufTy).Contents (Elt F) → (⟨S32, .f32⟩ : BufTy).Contents (Elt F)),
    nullary main_cst_5 (constant S_ .f32 0x33D6BF95#32),
    unary main_cst_5 main_v98 (broadcastInDim S32 ![] bcast_S_S32 : (⟨S_, .f32⟩ : BufTy).Contents (Elt F) → (⟨S32, .f32⟩ : BufTy).Contents (Elt F)),
    binary main_v97 main_v98 main_v99 (addf : (⟨S32, .f32⟩ : BufTy).Contents (Elt F) → (⟨S32, .f32⟩ : BufTy).Contents (Elt F) → (⟨S32, .f32⟩ : BufTy).Contents (Elt F)),
    unary main_v99 main_v100 (broadcastInDim S1x1x32 ![2] bcast_S32_S1x1x32_2 : (⟨S32, .f32⟩ : BufTy).Contents (Elt F) → (⟨S1x1x32, .f32⟩ : BufTy).Contents (Elt F)),
    unary main_v100 main_v101 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v94 main_v101 main_v102 (Host.divf : (⟨S8192x192x32, .f32⟩ : BufTy).Contents (Elt F) → (⟨S8192x192x32, .f32⟩ : BufTy).Contents (Elt F) → (⟨S8192x192x32, .f32⟩ : BufTy).Contents (Elt F)),
    unary main_v74 main_v103 ((extractStridedSlice S8192x192x32 ![0, 0, 1] · slices_S8192x192x33_S8192x192x32_0_0_1) : (⟨S8192x192x33, .f32⟩ : BufTy).Contents (Elt F) → (⟨S8192x192x32, .f32⟩ : BufTy).Contents (Elt F)),
    binary main_v102 main_v103 main_v104 (mulf : (⟨S8192x192x32, .f32⟩ : BufTy).Contents (Elt F) → (⟨S8192x192x32, .f32⟩ : BufTy).Contents (Elt F) → (⟨S8192x192x32, .f32⟩ : BufTy).Contents (Elt F)),
    binary main_v89 main_v104 main_v105 (addf : (⟨S8192x192x32, .f32⟩ : BufTy).Contents (Elt F) → (⟨S8192x192x32, .f32⟩ : BufTy).Contents (Elt F) → (⟨S8192x192x32, .f32⟩ : BufTy).Contents (Elt F)),
    unary main_arg1 main_v106 (broadcastInDim S8192x32x3 ![0, 1, 2] bcast_S8192x32x1_S8192x32x3_0_1_2 : (⟨S8192x32x1, .f32⟩ : BufTy).Contents (Elt F) → (⟨S8192x32x3, .f32⟩ : BufTy).Contents (Elt F)),
    binary main_arg0 main_v106 main_v107 (mulf : (⟨S8192x32x3, .f32⟩ : BufTy).Contents (Elt F) → (⟨S8192x32x3, .f32⟩ : BufTy).Contents (Elt F) → (⟨S8192x32x3, .f32⟩ : BufTy).Contents (Elt F)),
    binary main_v105 main_v107 main_v108 ((fun l r => Host.dotGeneral dot_S8192x192x32_S8192x32x3_S8192x192x3_2_1_1_2_0_0 none l r) : (⟨S8192x192x32, .f32⟩ : BufTy).Contents (Elt F) → (⟨S8192x32x3, .f32⟩ : BufTy).Contents (Elt F) → (⟨S8192x192x3, .f32⟩ : BufTy).Contents (Elt F)),
    binary main_v105 main_arg1 main_v109 ((fun l r => Host.dotGeneral dot_S8192x192x32_S8192x32x1_S8192x192x1_2_1_1_2_0_0 none l r) : (⟨S8192x192x32, .f32⟩ : BufTy).Contents (Elt F) → (⟨S8192x32x1, .f32⟩ : BufTy).Contents (Elt F) → (⟨S8192x192x1, .f32⟩ : BufTy).Contents (Elt F)),
    nullary main_cst_6 (constant S_ .f32 0x33D6BF95#32),
    unary main_cst_6 main_v110 (broadcastInDim S8192x192x1 ![] bcast_S_S8192x192x1 : (⟨S_, .f32⟩ : BufTy).Contents (Elt F) → (⟨S8192x192x1, .f32⟩ : BufTy).Contents (Elt F)),
    binary main_v109 main_v110 main_v111 (addf : (⟨S8192x192x1, .f32⟩ : BufTy).Contents (Elt F) → (⟨S8192x192x1, .f32⟩ : BufTy).Contents (Elt F) → (⟨S8192x192x1, .f32⟩ : BufTy).Contents (Elt F)),
    unary main_v111 main_v112 (broadcastInDim S8192x192x3 ![0, 1, 2] bcast_S8192x192x1_S8192x192x3_0_1_2 : (⟨S8192x192x1, .f32⟩ : BufTy).Contents (Elt F) → (⟨S8192x192x3, .f32⟩ : BufTy).Contents (Elt F)),
    binary main_v108 main_v112 main_v113 (Host.divf : (⟨S8192x192x3, .f32⟩ : BufTy).Contents (Elt F) → (⟨S8192x192x3, .f32⟩ : BufTy).Contents (Elt F) → (⟨S8192x192x3, .f32⟩ : BufTy).Contents (Elt F)),
    unary main_v113 main_v114 (broadcastInDim S8192x192x3x1 ![0, 1, 2] bcast_S8192x192x3_S8192x192x3x1_0_1_2 : (⟨S8192x192x3, .f32⟩ : BufTy).Contents (Elt F) → (⟨S8192x192x3x1, .f32⟩ : BufTy).Contents (Elt F)) ]

set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., binary_bufs_sub .., nullary_bufs_sub .., unary_bufs_sub .., binary_bufs_sub .., unary_bufs_sub .., binary_bufs_sub .., unary_bufs_sub ..⟩

/-- The buffer %cst of @main as a term of the arguments. -/
def knotsR : FVec F S36 .f32 :=
  (fun i => FloatOps.ofBits .f32 (lit0 (S36.rowMajor i)))

/-- The buffer %v0 of @main as a term of the arguments. -/
def r_tt (ub : FVec F S8192x192 .f32) : FVec F S8192x192x1 .f32 :=
  ((broadcastInDim S8192x192x1 ![0, 1] bcast_S8192x192_S8192x192x1_0_1 : (⟨S8192x192, .f32⟩ : BufTy).Contents (Elt F) → (⟨S8192x192x1, .f32⟩ : BufTy).Contents (Elt F)) ub)

/-- The buffer %v12 of @main as a term of the arguments. -/
def r_N0 (ub : FVec F S8192x192 .f32) : FVec F S8192x192x35 .f32 :=
  ((uitofp .f32 : (⟨S8192x192x35, .i1⟩ : BufTy).Contents (Elt F) → (⟨S8192x192x35, .f32⟩ : BufTy).Contents (Elt F)) ((andi : (⟨S8192x192x35, .i1⟩ : BufTy).Contents (Elt F) → (⟨S8192x192x35, .i1⟩ : BufTy).Contents (Elt F) → (⟨S8192x192x35, .i1⟩ : BufTy).Contents (Elt F)) ((cmpf .ole : (⟨S8192x192x35, .f32⟩ : BufTy).Contents (Elt F) → (⟨S8192x192x35, .f32⟩ : BufTy).Contents (Elt F) → (⟨S8192x192x35, .i1⟩ : BufTy).Contents (Elt F)) ((broadcastInDim S8192x192x35 ![0, 1, 2] bcast_S1x1x35_S8192x192x35_0_1_2 : (⟨S1x1x35, .f32⟩ : BufTy).Contents (Elt F) → (⟨S8192x192x35, .f32⟩ : BufTy).Contents (Elt F)) ((broadcastInDim S1x1x35 ![2] bcast_S35_S1x1x35_2 : (⟨S35, .f32⟩ : BufTy).Contents (Elt F) → (⟨S1x1x35, .f32⟩ : BufTy).Contents (Elt F)) (((extractStridedSlice S35 ![0] · slices_S36_S35_0) : (⟨S36, .f32⟩ : BufTy).Contents (Elt F) → (⟨S35, .f32⟩ : BufTy).Contents (Elt F)) knotsR))) ((broadcastInDim S8192x192x35 ![0, 1, 2] bcast_S8192x192x1_S8192x192x35_0_1_2 : (⟨S8192x192x1, .f32⟩ : BufTy).Contents (Elt F) → (⟨S8192x192x35, .f32⟩ : BufTy).Contents (Elt F)) (r_tt ub))) ((cmpf .olt : (⟨S8192x192x35, .f32⟩ : BufTy).Contents (Elt F) → (⟨S8192x192x35, .f32⟩ : BufTy).Contents (Elt F) → (⟨S8192x192x35, .i1⟩ : BufTy).Contents (Elt F)) ((broadcastInDim S8192x192x35 ![0, 1, 2] bcast_S8192x192x1_S8192x192x35_0_1_2 : (⟨S8192x192x1, .f32⟩ : BufTy).Contents (Elt F) → (⟨S8192x192x35, .f32⟩ : BufTy).Contents (Elt F)) (r_tt ub)) ((broadcastInDim S8192x192x35 ![0, 1, 2] bcast_S1x1x35_S8192x192x35_0_1_2 : (⟨S1x1x35, .f32⟩ : BufTy).Contents (Elt F) → (⟨S8192x192x35, .f32⟩ : BufTy).Contents (Elt F)) ((broadcastInDim S1x1x35 ![2] bcast_S35_S1x1x35_2 : (⟨S35, .f32⟩ : BufTy).Contents (Elt F) → (⟨S1x1x35, .f32⟩ : BufTy).Contents (Elt F)) (((extractStridedSlice S35 ![1] · slices_S36_S35_1) : (⟨S36, .f32⟩ : BufTy).Contents (Elt F) → (⟨S35, .f32⟩ : BufTy).Contents (Elt F)) knotsR))))))

/-- The buffer %v43 of @main as a term of the arguments. -/
def r_N1 (ub : FVec F S8192x192 .f32) : FVec F S8192x192x34 .f32 :=
  ((addf : (⟨S8192x192x34, .f32⟩ : BufTy).Contents (Elt F) → (⟨S8192x192x34, .f32⟩ : BufTy).Contents (Elt F) → (⟨S8192x192x34, .f32⟩ : BufTy).Contents (Elt F)) ((mulf : (⟨S8192x192x34, .f32⟩ : BufTy).Contents (Elt F) → (⟨S8192x192x34, .f32⟩ : BufTy).Contents (Elt F) → (⟨S8192x192x34, .f32⟩ : BufTy).Contents (Elt F)) ((Host.divf : (⟨S8192x192x34, .f32⟩ : BufTy).Contents (Elt F) → (⟨S8192x192x34, .f32⟩ : BufTy).Contents (Elt F) → (⟨S8192x192x34, .f32⟩ : BufTy).Contents (Elt F)) ((subf : (⟨S8192x192x34, .f32⟩ : BufTy).Contents (Elt F) → (⟨S8192x192x34, .f32⟩ : BufTy).Contents (Elt F) → (⟨S8192x192x34, .f32⟩ : BufTy).Contents (Elt F)) ((broadcastInDim S8192x192x34 ![0, 1, 2] bcast_S8192x192x1_S8192x192x34_0_1_2 : (⟨S8192x192x1, .f32⟩ : BufTy).Contents (Elt F) → (⟨S8192x192x34, .f32⟩ : BufTy).Contents (Elt F)) (r_tt ub)) ((broadcastInDim S8192x192x34 ![0, 1, 2] bcast_S1x1x34_S8192x192x34_0_1_2 : (⟨S1x1x34, .f32⟩ : BufTy).Contents (Elt F) → (⟨S8192x192x34, .f32⟩ : BufTy).Contents (Elt F)) ((broadcastInDim S1x1x34 ![2] bcast_S34_S1x1x34_2 : (⟨S34, .f32⟩ : BufTy).Contents (Elt F) → (⟨S1x1x34, .f32⟩ : BufTy).Contents (Elt F)) (((extractStridedSlice S34 ![0] · slices_S36_S34_0) : (⟨S36, .f32⟩ : BufTy).Contents (Elt F) → (⟨S34, .f32⟩ : BufTy).Contents (Elt F)) knotsR)))) ((broadcastInDim S8192x192x34 ![0, 1, 2] bcast_S1x1x34_S8192x192x34_0_1_2 : (⟨S1x1x34, .f32⟩ : BufTy).Contents (Elt F) → (⟨S8192x192x34, .f32⟩ : BufTy).Contents (Elt F)) ((broadcastInDim S1x1x34 ![2] bcast_S34_S1x1x34_2 : (⟨S34, .f32⟩ : BufTy).Contents (Elt F) → (⟨S1x1x34, .f32⟩ : BufTy).Contents (Elt F)) ((addf : (⟨S34, .f32⟩ : BufTy).Contents (Elt F) → (⟨S34, .f32⟩ : BufTy).Contents (Elt F) → (⟨S34, .f32⟩ : BufTy).Contents (Elt F)) ((subf : (⟨S34, .f32⟩ : BufTy).Contents (Elt F) → (⟨S34, .f32⟩ : BufTy).Contents (Elt F) → (⟨S34, .f32⟩ : BufTy).Contents (Elt F)) (((extractStridedSlice S34 ![1] · slices_S36_S34_1) : (⟨S36, .f32⟩ : BufTy).Contents (Elt F) → (⟨S34, .f32⟩ : BufTy).Contents (Elt F)) knotsR) (((extractStridedSlice S34 ![0] · slices_S36_S34_0) : (⟨S36, .f32⟩ : BufTy).Contents (Elt F) → (⟨S34, .f32⟩ : BufTy).Contents (Elt F)) knotsR)) ((broadcastInDim S34 ![] bcast_S_S34 : (⟨S_, .f32⟩ : BufTy).Contents (Elt F) → (⟨S34, .f32⟩ : BufTy).Contents (Elt F)) (constant S_ .f32 0x33D6BF95#32)))))) (((extractStridedSlice S8192x192x34 ![0, 0, 0] · slices_S8192x192x35_S8192x192x34_0_0_0) : (⟨S8192x192x35, .f32⟩ : BufTy).Contents (Elt F) → (⟨S8192x192x34, .f32⟩ : BufTy).Contents (Elt F)) (r_N0 ub))) ((mulf : (⟨S8192x192x34, .f32⟩ : BufTy).Contents (Elt F) → (⟨S8192x192x34, .f32⟩ : BufTy).Contents (Elt F) → (⟨S8192x192x34, .f32⟩ : BufTy).Contents (Elt F)) ((Host.divf : (⟨S8192x192x34, .f32⟩ : BufTy).Contents (Elt F) → (⟨S8192x192x34, .f32⟩ : BufTy).Contents (Elt F) → (⟨S8192x192x34, .f32⟩ : BufTy).Contents (Elt F)) ((subf : (⟨S8192x192x34, .f32⟩ : BufTy).Contents (Elt F) → (⟨S8192x192x34, .f32⟩ : BufTy).Contents (Elt F) → (⟨S8192x192x34, .f32⟩ : BufTy).Contents (Elt F)) ((broadcastInDim S8192x192x34 ![0, 1, 2] bcast_S1x1x34_S8192x192x34_0_1_2 : (⟨S1x1x34, .f32⟩ : BufTy).Contents (Elt F) → (⟨S8192x192x34, .f32⟩ : BufTy).Contents (Elt F)) ((broadcastInDim S1x1x34 ![2] bcast_S34_S1x1x34_2 : (⟨S34, .f32⟩ : BufTy).Contents (Elt F) → (⟨S1x1x34, .f32⟩ : BufTy).Contents (Elt F)) (((extractStridedSlice S34 ![2] · slices_S36_S34_2) : (⟨S36, .f32⟩ : BufTy).Contents (Elt F) → (⟨S34, .f32⟩ : BufTy).Contents (Elt F)) knotsR))) ((broadcastInDim S8192x192x34 ![0, 1, 2] bcast_S8192x192x1_S8192x192x34_0_1_2 : (⟨S8192x192x1, .f32⟩ : BufTy).Contents (Elt F) → (⟨S8192x192x34, .f32⟩ : BufTy).Contents (Elt F)) (r_tt ub))) ((broadcastInDim S8192x192x34 ![0, 1, 2] bcast_S1x1x34_S8192x192x34_0_1_2 : (⟨S1x1x34, .f32⟩ : BufTy).Contents (Elt F) → (⟨S8192x192x34, .f32⟩ : BufTy).Contents (Elt F)) ((broadcastInDim S1x1x34 ![2] bcast_S34_S1x1x34_2 : (⟨S34, .f32⟩ : BufTy).Contents (Elt F) → (⟨S1x1x34, .f32⟩ : BufTy).Contents (Elt F)) ((addf : (⟨S34, .f32⟩ : BufTy).Contents (Elt F) → (⟨S34, .f32⟩ : BufTy).Contents (Elt F) → (⟨S34, .f32⟩ : BufTy).Contents (Elt F)) ((subf : (⟨S34, .f32⟩ : BufTy).Contents (Elt F) → (⟨S34, .f32⟩ : BufTy).Contents (Elt F) → (⟨S34, .f32⟩ : BufTy).Contents (Elt F)) (((extractStridedSlice S34 ![2] · slices_S36_S34_2) : (⟨S36, .f32⟩ : BufTy).Contents (Elt F) → (⟨S34, .f32⟩ : BufTy).Contents (Elt F)) knotsR) (((extractStridedSlice S34 ![1] · slices_S36_S34_1) : (⟨S36, .f32⟩ : BufTy).Contents (Elt F) → (⟨S34, .f32⟩ : BufTy).Contents (Elt F)) knotsR)) ((broadcastInDim S34 ![] bcast_S_S34 : (⟨S_, .f32⟩ : BufTy).Contents (Elt F) → (⟨S34, .f32⟩ : BufTy).Contents (Elt F)) (constant S_ .f32 0x33D6BF95#32)))))) (((extractStridedSlice S8192x192x34 ![0, 0, 1] · slices_S8192x192x35_S8192x192x34_0_0_1) : (⟨S8192x192x35, .f32⟩ : BufTy).Contents (Elt F) → (⟨S8192x192x34, .f32⟩ : BufTy).Contents (Elt F)) (r_N0 ub))))

/-- The buffer %v74 of @main as a term of the arguments. -/
def r_N2 (ub : FVec F S8192x192 .f32) : FVec F S8192x192x33 .f32 :=
  ((addf : (⟨S8192x192x33, .f32⟩ : BufTy).Contents (Elt F) → (⟨S8192x192x33, .f32⟩ : BufTy).Contents (Elt F) → (⟨S8192x192x33, .f32⟩ : BufTy).Contents (Elt F)) ((mulf : (⟨S8192x192x33, .f32⟩ : BufTy).Contents (Elt F) → (⟨S8192x192x33, .f32⟩ : BufTy).Contents (Elt F) → (⟨S8192x192x33, .f32⟩ : BufTy).Contents (Elt F)) ((Host.divf : (⟨S8192x192x33, .f32⟩ : BufTy).Contents (Elt F) → (⟨S8192x192x33, .f32⟩ : BufTy).Contents (Elt F) → (⟨S8192x192x33, .f32⟩ : BufTy).Contents (Elt F)) ((subf : (⟨S8192x192x33, .f32⟩ : BufTy).Contents (Elt F) → (⟨S8192x192x33, .f32⟩ : BufTy).Contents (Elt F) → (⟨S8192x192x33, .f32⟩ : BufTy).Contents (Elt F)) ((broadcastInDim S8192x192x33 ![0, 1, 2] bcast_S8192x192x1_S8192x192x33_0_1_2 : (⟨S8192x192x1, .f32⟩ : BufTy).Contents (Elt F) → (⟨S8192x192x33, .f32⟩ : BufTy).Contents (Elt F)) (r_tt ub)) ((broadcastInDim S8192x192x33 ![0, 1, 2] bcast_S1x1x33_S8192x192x33_0_1_2 : (⟨S1x1x33, .f32⟩ : BufTy).Contents (Elt F) → (⟨S8192x192x33, .f32⟩ : BufTy).Contents (Elt F)) ((broadcastInDim S1x1x33 ![2] bcast_S33_S1x1x33_2 : (⟨S33, .f32⟩ : BufTy).Contents (Elt F) → (⟨S1x1x33, .f32⟩ : BufTy).Contents (Elt F)) (((extractStridedSlice S33 ![0] · slices_S36_S33_0) : (⟨S36, .f32⟩ : BufTy).Contents (Elt F) → (⟨S33, .f32⟩ : BufTy).Contents (Elt F)) knotsR)))) ((broadcastInDim S8192x192x33 ![0, 1, 2] bcast_S1x1x33_S8192x192x33_0_1_2 : (⟨S1x1x33, .f32⟩ : BufTy).Contents (Elt F) → (⟨S8192x192x33, .f32⟩ : BufTy).Contents (Elt F)) ((broadcastInDim S1x1x33 ![2] bcast_S33_S1x1x33_2 : (⟨S33, .f32⟩ : BufTy).Contents (Elt F) → (⟨S1x1x33, .f32⟩ : BufTy).Contents (Elt F)) ((addf : (⟨S33, .f32⟩ : BufTy).Contents (Elt F) → (⟨S33, .f32⟩ : BufTy).Contents (Elt F) → (⟨S33, .f32⟩ : BufTy).Contents (Elt F)) ((subf : (⟨S33, .f32⟩ : BufTy).Contents (Elt F) → (⟨S33, .f32⟩ : BufTy).Contents (Elt F) → (⟨S33, .f32⟩ : BufTy).Contents (Elt F)) (((extractStridedSlice S33 ![2] · slices_S36_S33_2) : (⟨S36, .f32⟩ : BufTy).Contents (Elt F) → (⟨S33, .f32⟩ : BufTy).Contents (Elt F)) knotsR) (((extractStridedSlice S33 ![0] · slices_S36_S33_0) : (⟨S36, .f32⟩ : BufTy).Contents (Elt F) → (⟨S33, .f32⟩ : BufTy).Contents (Elt F)) knotsR)) ((broadcastInDim S33 ![] bcast_S_S33 : (⟨S_, .f32⟩ : BufTy).Contents (Elt F) → (⟨S33, .f32⟩ : BufTy).Contents (Elt F)) (constant S_ .f32 0x33D6BF95#32)))))) (((extractStridedSlice S8192x192x33 ![0, 0, 0] · slices_S8192x192x34_S8192x192x33_0_0_0) : (⟨S8192x192x34, .f32⟩ : BufTy).Contents (Elt F) → (⟨S8192x192x33, .f32⟩ : BufTy).Contents (Elt F)) (r_N1 ub))) ((mulf : (⟨S8192x192x33, .f32⟩ : BufTy).Contents (Elt F) → (⟨S8192x192x33, .f32⟩ : BufTy).Contents (Elt F) → (⟨S8192x192x33, .f32⟩ : BufTy).Contents (Elt F)) ((Host.divf : (⟨S8192x192x33, .f32⟩ : BufTy).Contents (Elt F) → (⟨S8192x192x33, .f32⟩ : BufTy).Contents (Elt F) → (⟨S8192x192x33, .f32⟩ : BufTy).Contents (Elt F)) ((subf : (⟨S8192x192x33, .f32⟩ : BufTy).Contents (Elt F) → (⟨S8192x192x33, .f32⟩ : BufTy).Contents (Elt F) → (⟨S8192x192x33, .f32⟩ : BufTy).Contents (Elt F)) ((broadcastInDim S8192x192x33 ![0, 1, 2] bcast_S1x1x33_S8192x192x33_0_1_2 : (⟨S1x1x33, .f32⟩ : BufTy).Contents (Elt F) → (⟨S8192x192x33, .f32⟩ : BufTy).Contents (Elt F)) ((broadcastInDim S1x1x33 ![2] bcast_S33_S1x1x33_2 : (⟨S33, .f32⟩ : BufTy).Contents (Elt F) → (⟨S1x1x33, .f32⟩ : BufTy).Contents (Elt F)) (((extractStridedSlice S33 ![3] · slices_S36_S33_3) : (⟨S36, .f32⟩ : BufTy).Contents (Elt F) → (⟨S33, .f32⟩ : BufTy).Contents (Elt F)) knotsR))) ((broadcastInDim S8192x192x33 ![0, 1, 2] bcast_S8192x192x1_S8192x192x33_0_1_2 : (⟨S8192x192x1, .f32⟩ : BufTy).Contents (Elt F) → (⟨S8192x192x33, .f32⟩ : BufTy).Contents (Elt F)) (r_tt ub))) ((broadcastInDim S8192x192x33 ![0, 1, 2] bcast_S1x1x33_S8192x192x33_0_1_2 : (⟨S1x1x33, .f32⟩ : BufTy).Contents (Elt F) → (⟨S8192x192x33, .f32⟩ : BufTy).Contents (Elt F)) ((broadcastInDim S1x1x33 ![2] bcast_S33_S1x1x33_2 : (⟨S33, .f32⟩ : BufTy).Contents (Elt F) → (⟨S1x1x33, .f32⟩ : BufTy).Contents (Elt F)) ((addf : (⟨S33, .f32⟩ : BufTy).Contents (Elt F) → (⟨S33, .f32⟩ : BufTy).Contents (Elt F) → (⟨S33, .f32⟩ : BufTy).Contents (Elt F)) ((subf : (⟨S33, .f32⟩ : BufTy).Contents (Elt F) → (⟨S33, .f32⟩ : BufTy).Contents (Elt F) → (⟨S33, .f32⟩ : BufTy).Contents (Elt F)) (((extractStridedSlice S33 ![3] · slices_S36_S33_3) : (⟨S36, .f32⟩ : BufTy).Contents (Elt F) → (⟨S33, .f32⟩ : BufTy).Contents (Elt F)) knotsR) (((extractStridedSlice S33 ![1] · slices_S36_S33_1) : (⟨S36, .f32⟩ : BufTy).Contents (Elt F) → (⟨S33, .f32⟩ : BufTy).Contents (Elt F)) knotsR)) ((broadcastInDim S33 ![] bcast_S_S33 : (⟨S_, .f32⟩ : BufTy).Contents (Elt F) → (⟨S33, .f32⟩ : BufTy).Contents (Elt F)) (constant S_ .f32 0x33D6BF95#32)))))) (((extractStridedSlice S8192x192x33 ![0, 0, 1] · slices_S8192x192x34_S8192x192x33_0_0_1) : (⟨S8192x192x34, .f32⟩ : BufTy).Contents (Elt F) → (⟨S8192x192x33, .f32⟩ : BufTy).Contents (Elt F)) (r_N1 ub))))

/-- The buffer %v105 of @main as a term of the arguments. -/
def r_N3 (ub : FVec F S8192x192 .f32) : FVec F S8192x192x32 .f32 :=
  ((addf : (⟨S8192x192x32, .f32⟩ : BufTy).Contents (Elt F) → (⟨S8192x192x32, .f32⟩ : BufTy).Contents (Elt F) → (⟨S8192x192x32, .f32⟩ : BufTy).Contents (Elt F)) ((mulf : (⟨S8192x192x32, .f32⟩ : BufTy).Contents (Elt F) → (⟨S8192x192x32, .f32⟩ : BufTy).Contents (Elt F) → (⟨S8192x192x32, .f32⟩ : BufTy).Contents (Elt F)) ((Host.divf : (⟨S8192x192x32, .f32⟩ : BufTy).Contents (Elt F) → (⟨S8192x192x32, .f32⟩ : BufTy).Contents (Elt F) → (⟨S8192x192x32, .f32⟩ : BufTy).Contents (Elt F)) ((subf : (⟨S8192x192x32, .f32⟩ : BufTy).Contents (Elt F) → (⟨S8192x192x32, .f32⟩ : BufTy).Contents (Elt F) → (⟨S8192x192x32, .f32⟩ : BufTy).Contents (Elt F)) ((broadcastInDim S8192x192x32 ![0, 1, 2] bcast_S8192x192x1_S8192x192x32_0_1_2 : (⟨S8192x192x1, .f32⟩ : BufTy).Contents (Elt F) → (⟨S8192x192x32, .f32⟩ : BufTy).Contents (Elt F)) (r_tt ub)) ((broadcastInDim S8192x192x32 ![0, 1, 2] bcast_S1x1x32_S8192x192x32_0_1_2 : (⟨S1x1x32, .f32⟩ : BufTy).Contents (Elt F) → (⟨S8192x192x32, .f32⟩ : BufTy).Contents (Elt F)) ((broadcastInDim S1x1x32 ![2] bcast_S32_S1x1x32_2 : (⟨S32, .f32⟩ : BufTy).Contents (Elt F) → (⟨S1x1x32, .f32⟩ : BufTy).Contents (Elt F)) (((extractStridedSlice S32 ![0] · slices_S36_S32_0) : (⟨S36, .f32⟩ : BufTy).Contents (Elt F) → (⟨S32, .f32⟩ : BufTy).Contents (Elt F)) knotsR)))) ((broadcastInDim S8192x192x32 ![0, 1, 2] bcast_S1x1x32_S8192x192x32_0_1_2 : (⟨S1x1x32, .f32⟩ : BufTy).Contents (Elt F) → (⟨S8192x192x32, .f32⟩ : BufTy).Contents (Elt F)) ((broadcastInDim S1x1x32 ![2] bcast_S32_S1x1x32_2 : (⟨S32, .f32⟩ : BufTy).Contents (Elt F) → (⟨S1x1x32, .f32⟩ : BufTy).Contents (Elt F)) ((addf : (⟨S32, .f32⟩ : BufTy).Contents (Elt F) → (⟨S32, .f32⟩ : BufTy).Contents (Elt F) → (⟨S32, .f32⟩ : BufTy).Contents (Elt F)) ((subf : (⟨S32, .f32⟩ : BufTy).Contents (Elt F) → (⟨S32, .f32⟩ : BufTy).Contents (Elt F) → (⟨S32, .f32⟩ : BufTy).Contents (Elt F)) (((extractStridedSlice S32 ![3] · slices_S36_S32_3) : (⟨S36, .f32⟩ : BufTy).Contents (Elt F) → (⟨S32, .f32⟩ : BufTy).Contents (Elt F)) knotsR) (((extractStridedSlice S32 ![0] · slices_S36_S32_0) : (⟨S36, .f32⟩ : BufTy).Contents (Elt F) → (⟨S32, .f32⟩ : BufTy).Contents (Elt F)) knotsR)) ((broadcastInDim S32 ![] bcast_S_S32 : (⟨S_, .f32⟩ : BufTy).Contents (Elt F) → (⟨S32, .f32⟩ : BufTy).Contents (Elt F)) (constant S_ .f32 0x33D6BF95#32)))))) (((extractStridedSlice S8192x192x32 ![0, 0, 0] · slices_S8192x192x33_S8192x192x32_0_0_0) : (⟨S8192x192x33, .f32⟩ : BufTy).Contents (Elt F) → (⟨S8192x192x32, .f32⟩ : BufTy).Contents (Elt F)) (r_N2 ub))) ((mulf : (⟨S8192x192x32, .f32⟩ : BufTy).Contents (Elt F) → (⟨S8192x192x32, .f32⟩ : BufTy).Contents (Elt F) → (⟨S8192x192x32, .f32⟩ : BufTy).Contents (Elt F)) ((Host.divf : (⟨S8192x192x32, .f32⟩ : BufTy).Contents (Elt F) → (⟨S8192x192x32, .f32⟩ : BufTy).Contents (Elt F) → (⟨S8192x192x32, .f32⟩ : BufTy).Contents (Elt F)) ((subf : (⟨S8192x192x32, .f32⟩ : BufTy).Contents (Elt F) → (⟨S8192x192x32, .f32⟩ : BufTy).Contents (Elt F) → (⟨S8192x192x32, .f32⟩ : BufTy).Contents (Elt F)) ((broadcastInDim S8192x192x32 ![0, 1, 2] bcast_S1x1x32_S8192x192x32_0_1_2 : (⟨S1x1x32, .f32⟩ : BufTy).Contents (Elt F) → (⟨S8192x192x32, .f32⟩ : BufTy).Contents (Elt F)) ((broadcastInDim S1x1x32 ![2] bcast_S32_S1x1x32_2 : (⟨S32, .f32⟩ : BufTy).Contents (Elt F) → (⟨S1x1x32, .f32⟩ : BufTy).Contents (Elt F)) (((extractStridedSlice S32 ![4] · slices_S36_S32_4) : (⟨S36, .f32⟩ : BufTy).Contents (Elt F) → (⟨S32, .f32⟩ : BufTy).Contents (Elt F)) knotsR))) ((broadcastInDim S8192x192x32 ![0, 1, 2] bcast_S8192x192x1_S8192x192x32_0_1_2 : (⟨S8192x192x1, .f32⟩ : BufTy).Contents (Elt F) → (⟨S8192x192x32, .f32⟩ : BufTy).Contents (Elt F)) (r_tt ub))) ((broadcastInDim S8192x192x32 ![0, 1, 2] bcast_S1x1x32_S8192x192x32_0_1_2 : (⟨S1x1x32, .f32⟩ : BufTy).Contents (Elt F) → (⟨S8192x192x32, .f32⟩ : BufTy).Contents (Elt F)) ((broadcastInDim S1x1x32 ![2] bcast_S32_S1x1x32_2 : (⟨S32, .f32⟩ : BufTy).Contents (Elt F) → (⟨S1x1x32, .f32⟩ : BufTy).Contents (Elt F)) ((addf : (⟨S32, .f32⟩ : BufTy).Contents (Elt F) → (⟨S32, .f32⟩ : BufTy).Contents (Elt F) → (⟨S32, .f32⟩ : BufTy).Contents (Elt F)) ((subf : (⟨S32, .f32⟩ : BufTy).Contents (Elt F) → (⟨S32, .f32⟩ : BufTy).Contents (Elt F) → (⟨S32, .f32⟩ : BufTy).Contents (Elt F)) (((extractStridedSlice S32 ![4] · slices_S36_S32_4) : (⟨S36, .f32⟩ : BufTy).Contents (Elt F) → (⟨S32, .f32⟩ : BufTy).Contents (Elt F)) knotsR) (((extractStridedSlice S32 ![1] · slices_S36_S32_1) : (⟨S36, .f32⟩ : BufTy).Contents (Elt F) → (⟨S32, .f32⟩ : BufTy).Contents (Elt F)) knotsR)) ((broadcastInDim S32 ![] bcast_S_S32 : (⟨S_, .f32⟩ : BufTy).Contents (Elt F) → (⟨S32, .f32⟩ : BufTy).Contents (Elt F)) (constant S_ .f32 0x33D6BF95#32)))))) (((extractStridedSlice S8192x192x32 ![0, 0, 1] · slices_S8192x192x33_S8192x192x32_0_0_1) : (⟨S8192x192x33, .f32⟩ : BufTy).Contents (Elt F) → (⟨S8192x192x32, .f32⟩ : BufTy).Contents (Elt F)) (r_N2 ub))))

/-- The buffer %v114 of @main as a term of the arguments. -/
def r_out (cp : FVec F S8192x32x3 .f32) (w : FVec F S8192x32x1 .f32) (ub : FVec F S8192x192 .f32) : FVec F S8192x192x3x1 .f32 :=
  ((broadcastInDim S8192x192x3x1 ![0, 1, 2] bcast_S8192x192x3_S8192x192x3x1_0_1_2 : (⟨S8192x192x3, .f32⟩ : BufTy).Contents (Elt F) → (⟨S8192x192x3x1, .f32⟩ : BufTy).Contents (Elt F)) ((Host.divf : (⟨S8192x192x3, .f32⟩ : BufTy).Contents (Elt F) → (⟨S8192x192x3, .f32⟩ : BufTy).Contents (Elt F) → (⟨S8192x192x3, .f32⟩ : BufTy).Contents (Elt F)) (((fun l r => Host.dotGeneral dot_S8192x192x32_S8192x32x3_S8192x192x3_2_1_1_2_0_0 none l r) : (⟨S8192x192x32, .f32⟩ : BufTy).Contents (Elt F) → (⟨S8192x32x3, .f32⟩ : BufTy).Contents (Elt F) → (⟨S8192x192x3, .f32⟩ : BufTy).Contents (Elt F)) (r_N3 ub) ((mulf : (⟨S8192x32x3, .f32⟩ : BufTy).Contents (Elt F) → (⟨S8192x32x3, .f32⟩ : BufTy).Contents (Elt F) → (⟨S8192x32x3, .f32⟩ : BufTy).Contents (Elt F)) cp ((broadcastInDim S8192x32x3 ![0, 1, 2] bcast_S8192x32x1_S8192x32x3_0_1_2 : (⟨S8192x32x1, .f32⟩ : BufTy).Contents (Elt F) → (⟨S8192x32x3, .f32⟩ : BufTy).Contents (Elt F)) w))) ((broadcastInDim S8192x192x3 ![0, 1, 2] bcast_S8192x192x1_S8192x192x3_0_1_2 : (⟨S8192x192x1, .f32⟩ : BufTy).Contents (Elt F) → (⟨S8192x192x3, .f32⟩ : BufTy).Contents (Elt F)) ((addf : (⟨S8192x192x1, .f32⟩ : BufTy).Contents (Elt F) → (⟨S8192x192x1, .f32⟩ : BufTy).Contents (Elt F) → (⟨S8192x192x1, .f32⟩ : BufTy).Contents (Elt F)) (((fun l r => Host.dotGeneral dot_S8192x192x32_S8192x32x1_S8192x192x1_2_1_1_2_0_0 none l r) : (⟨S8192x192x32, .f32⟩ : BufTy).Contents (Elt F) → (⟨S8192x32x1, .f32⟩ : BufTy).Contents (Elt F) → (⟨S8192x192x1, .f32⟩ : BufTy).Contents (Elt F)) (r_N3 ub) w) ((broadcastInDim S8192x192x1 ![] bcast_S_S8192x192x1 : (⟨S_, .f32⟩ : BufTy).Contents (Elt F) → (⟨S8192x192x1, .f32⟩ : BufTy).Contents (Elt F)) (constant S_ .f32 0x33D6BF95#32))))))

end Cert.ReferenceIdeal.RefRun

end
-- ==== Proof.RefRun.lean ====
/-
  The reference program's run read back: @main is its list of host operations (the printed windows unfold), so every
  weakly fair execution terminates with the result buffer at the operations' composition, a pure term of the three
  argument arrays, and with the arguments as launched.
-/
import proofs.«139278_j36618891166097_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 49600000 in
/-- On every device, from any memory with zero counters: @main terminates with its result at `r_out` of the three
    argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = r_out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v114).trans (by after_results_simp <;> rfl <;> (unfold r_out r_N3 r_N2 r_N1 r_N0 r_tt knotsR; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefContract.lean ====
/-
  The reference's two batched products read at an entry. Each contracts the 32 basis values of a batch row's parameter
  with that row's 32 control-point rows: entry (B, u, d) of the product of a [8192, 192, 32] array L with a
  [8192, 32, n] array R is ∑ₖ L[B, u, k] · R[B, k, d], a sum over k = 0 … 31 of exact products of extended reals.
-/
import proofs.«139278_j36618891166097_1_alg».proof.Proof.Gen.ReferenceIdeal
import Idealize.ShloMosaic.Lib.ValueIdx
import Idealize.ShloMosaic.PureOps.Ideal.Laws

noncomputable section

namespace Cert.ReferenceIdeal.RefContract

open Cert.ReferenceIdeal Cert.ReferenceIdeal.Gen Idealize.ShloMosaic Idealize.ShloMosaic.ValueIdx

/-! The operand indices of the batched product into [8192, 192, 3], coordinate by coordinate: the batch row and the free
    coordinate come from the result index, the contracted coordinate from the contraction index. -/

theorem lhs3_0 (i : S8192x192x3.Idx) (q : dot_S8192x192x32_S8192x32x3_S8192x192x3_2_1_1_2_0_0.contr.Idx) :
    (dot_S8192x192x32_S8192x32x3_S8192x192x3_2_1_1_2_0_0.lhsIdx i q 0).val = (i 0).val := by
  unfold DotDims.lhsIdx
  rw [dif_pos (show (0 : Fin S8192x192x32.rank) ∈ dot_S8192x192x32_S8192x32x3_S8192x192x3_2_1_1_2_0_0.lhsBatch by decide)]
  rfl

theorem lhs3_1 (i : S8192x192x3.Idx) (q : dot_S8192x192x32_S8192x32x3_S8192x192x3_2_1_1_2_0_0.contr.Idx) :
    (dot_S8192x192x32_S8192x32x3_S8192x192x3_2_1_1_2_0_0.lhsIdx i q 1).val = (i 1).val := by
  unfold DotDims.lhsIdx
  rw [dif_neg (show ¬(1 : Fin S8192x192x32.rank) ∈ dot_S8192x192x32_S8192x32x3_S8192x192x3_2_1_1_2_0_0.lhsBatch by decide),
    dif_pos (show (1 : Fin S8192x192x32.rank) ∈ dot_S8192x192x32_S8192x32x3_S8192x192x3_2_1_1_2_0_0.lhsNonContracting by decide)]
  rfl

theorem lhs3_2 (i : S8192x192x3.Idx) (q : dot_S8192x192x32_S8192x32x3_S8192x192x3_2_1_1_2_0_0.contr.Idx) :
    (dot_S8192x192x32_S8192x32x3_S8192x192x3_2_1_1_2_0_0.lhsIdx i q 2).val = (q ⟨0, by decide⟩).val :=
  dot_S8192x192x32_S8192x32x3_S8192x192x3_2_1_1_2_0_0.lhsIdx_val_of_single rfl i q

theorem rhs3_0 (i : S8192x192x3.Idx) (q : dot_S8192x192x32_S8192x32x3_S8192x192x3_2_1_1_2_0_0.contr.Idx) :
    (dot_S8192x192x32_S8192x32x3_S8192x192x3_2_1_1_2_0_0.rhsIdx i q 0).val = (i 0).val := by
  unfold DotDims.rhsIdx
  rw [dif_pos (show (0 : Fin S8192x32x3.rank) ∈ dot_S8192x192x32_S8192x32x3_S8192x192x3_2_1_1_2_0_0.rhsBatch by decide)]
  rfl

theorem rhs3_1 (i : S8192x192x3.Idx) (q : dot_S8192x192x32_S8192x32x3_S8192x192x3_2_1_1_2_0_0.contr.Idx) :
    (dot_S8192x192x32_S8192x32x3_S8192x192x3_2_1_1_2_0_0.rhsIdx i q 1).val = (q ⟨0, by decide⟩).val :=
  dot_S8192x192x32_S8192x32x3_S8192x192x3_2_1_1_2_0_0.rhsIdx_val_of_single rfl i q

theorem rhs3_2 (i : S8192x192x3.Idx) (q : dot_S8192x192x32_S8192x32x3_S8192x192x3_2_1_1_2_0_0.contr.Idx) :
    (dot_S8192x192x32_S8192x32x3_S8192x192x3_2_1_1_2_0_0.rhsIdx i q 2).val = (i 2).val := by
  unfold DotDims.rhsIdx
  rw [dif_neg (show ¬(2 : Fin S8192x32x3.rank) ∈ dot_S8192x192x32_S8192x32x3_S8192x192x3_2_1_1_2_0_0.rhsBatch by decide),
    dif_pos (show (2 : Fin S8192x32x3.rank) ∈ dot_S8192x192x32_S8192x32x3_S8192x192x3_2_1_1_2_0_0.rhsNonContracting by decide)]
  rfl

/-- The product of the basis values with the weighted control points at entry (B, u, d): the sum over the 32 control points. -/
theorem dot3_apply (L : FVec Ideal S8192x192x32 .f32) (R : FVec Ideal S8192x32x3 .f32) (B : Fin 8192) (u : Fin 192) (d : Fin 3) :
    Host.dotGeneral dot_S8192x192x32_S8192x32x3_S8192x192x3_2_1_1_2_0_0 none L R (ix3 B u d) = ∑ k : Fin 32, L (ix3 B u k) * R (ix3 B k d) := by
  simp only [Host.dotGeneral]
  rw [Ideal.dotGeneral_apply, ← Equiv.sum_comp (ValueIdx.contrEquiv1 dot_S8192x192x32_S8192x32x3_S8192x192x3_2_1_1_2_0_0 32 rfl rfl).symm]
  refine Finset.sum_congr rfl fun k _ => ?_
  have hk := ValueIdx.contrEquiv1_symm_val dot_S8192x192x32_S8192x32x3_S8192x192x3_2_1_1_2_0_0 32 rfl rfl k
  have el : dot_S8192x192x32_S8192x32x3_S8192x192x3_2_1_1_2_0_0.lhsIdx (ix3 B u d) ((ValueIdx.contrEquiv1 dot_S8192x192x32_S8192x32x3_S8192x192x3_2_1_1_2_0_0 32 rfl rfl).symm k) = ix3 B u k :=
    funext fun a => Fin.ext (by
      match a with
      | ⟨0, _⟩ => exact lhs3_0 _ _
      | ⟨1, _⟩ => exact lhs3_1 _ _
      | ⟨2, _⟩ => exact (lhs3_2 _ _).trans hk)
  have er : dot_S8192x192x32_S8192x32x3_S8192x192x3_2_1_1_2_0_0.rhsIdx (ix3 B u d) ((ValueIdx.contrEquiv1 dot_S8192x192x32_S8192x32x3_S8192x192x3_2_1_1_2_0_0 32 rfl rfl).symm k) = ix3 B k d :=
    funext fun a => Fin.ext (by
      match a with
      | ⟨0, _⟩ => exact rhs3_0 _ _
      | ⟨1, _⟩ => exact (rhs3_1 _ _).trans hk
      | ⟨2, _⟩ => exact rhs3_2 _ _)
  rw [el, er]

/-! The operand indices of the batched product into [8192, 192, 1], coordinate by coordinate: the batch row and the free
    coordinate come from the result index, the contracted coordinate from the contraction index. -/

theorem lhs1_0 (i : S8192x192x1.Idx) (q : dot_S8192x192x32_S8192x32x1_S8192x192x1_2_1_1_2_0_0.contr.Idx) :
    (dot_S8192x192x32_S8192x32x1_S8192x192x1_2_1_1_2_0_0.lhsIdx i q 0).val = (i 0).val := by
  unfold DotDims.lhsIdx
  rw [dif_pos (show (0 : Fin S8192x192x32.rank) ∈ dot_S8192x192x32_S8192x32x1_S8192x192x1_2_1_1_2_0_0.lhsBatch by decide)]
  rfl

theorem lhs1_1 (i : S8192x192x1.Idx) (q : dot_S8192x192x32_S8192x32x1_S8192x192x1_2_1_1_2_0_0.contr.Idx) :
    (dot_S8192x192x32_S8192x32x1_S8192x192x1_2_1_1_2_0_0.lhsIdx i q 1).val = (i 1).val := by
  unfold DotDims.lhsIdx
  rw [dif_neg (show ¬(1 : Fin S8192x192x32.rank) ∈ dot_S8192x192x32_S8192x32x1_S8192x192x1_2_1_1_2_0_0.lhsBatch by decide),
    dif_pos (show (1 : Fin S8192x192x32.rank) ∈ dot_S8192x192x32_S8192x32x1_S8192x192x1_2_1_1_2_0_0.lhsNonContracting by decide)]
  rfl

theorem lhs1_2 (i : S8192x192x1.Idx) (q : dot_S8192x192x32_S8192x32x1_S8192x192x1_2_1_1_2_0_0.contr.Idx) :
    (dot_S8192x192x32_S8192x32x1_S8192x192x1_2_1_1_2_0_0.lhsIdx i q 2).val = (q ⟨0, by decide⟩).val :=
  dot_S8192x192x32_S8192x32x1_S8192x192x1_2_1_1_2_0_0.lhsIdx_val_of_single rfl i q

theorem rhs1_0 (i : S8192x192x1.Idx) (q : dot_S8192x192x32_S8192x32x1_S8192x192x1_2_1_1_2_0_0.contr.Idx) :
    (dot_S8192x192x32_S8192x32x1_S8192x192x1_2_1_1_2_0_0.rhsIdx i q 0).val = (i 0).val := by
  unfold DotDims.rhsIdx
  rw [dif_pos (show (0 : Fin S8192x32x1.rank) ∈ dot_S8192x192x32_S8192x32x1_S8192x192x1_2_1_1_2_0_0.rhsBatch by decide)]
  rfl

theorem rhs1_1 (i : S8192x192x1.Idx) (q : dot_S8192x192x32_S8192x32x1_S8192x192x1_2_1_1_2_0_0.contr.Idx) :
    (dot_S8192x192x32_S8192x32x1_S8192x192x1_2_1_1_2_0_0.rhsIdx i q 1).val = (q ⟨0, by decide⟩).val :=
  dot_S8192x192x32_S8192x32x1_S8192x192x1_2_1_1_2_0_0.rhsIdx_val_of_single rfl i q

theorem rhs1_2 (i : S8192x192x1.Idx) (q : dot_S8192x192x32_S8192x32x1_S8192x192x1_2_1_1_2_0_0.contr.Idx) :
    (dot_S8192x192x32_S8192x32x1_S8192x192x1_2_1_1_2_0_0.rhsIdx i q 2).val = (i 2).val := by
  unfold DotDims.rhsIdx
  rw [dif_neg (show ¬(2 : Fin S8192x32x1.rank) ∈ dot_S8192x192x32_S8192x32x1_S8192x192x1_2_1_1_2_0_0.rhsBatch by decide),
    dif_pos (show (2 : Fin S8192x32x1.rank) ∈ dot_S8192x192x32_S8192x32x1_S8192x192x1_2_1_1_2_0_0.rhsNonContracting by decide)]
  rfl

/-- The product of the basis values with the weights at entry (B, u, z): the sum over the 32 control points. -/
theorem dot1_apply (L : FVec Ideal S8192x192x32 .f32) (R : FVec Ideal S8192x32x1 .f32) (B : Fin 8192) (u : Fin 192) (z : Fin 1) :
    Host.dotGeneral dot_S8192x192x32_S8192x32x1_S8192x192x1_2_1_1_2_0_0 none L R (ix3 B u z) = ∑ k : Fin 32, L (ix3 B u k) * R (ix3 B k z) := by
  simp only [Host.dotGeneral]
  rw [Ideal.dotGeneral_apply, ← Equiv.sum_comp (ValueIdx.contrEquiv1 dot_S8192x192x32_S8192x32x1_S8192x192x1_2_1_1_2_0_0 32 rfl rfl).symm]
  refine Finset.sum_congr rfl fun k _ => ?_
  have hk := ValueIdx.contrEquiv1_symm_val dot_S8192x192x32_S8192x32x1_S8192x192x1_2_1_1_2_0_0 32 rfl rfl k
  have el : dot_S8192x192x32_S8192x32x1_S8192x192x1_2_1_1_2_0_0.lhsIdx (ix3 B u z) ((ValueIdx.contrEquiv1 dot_S8192x192x32_S8192x32x1_S8192x192x1_2_1_1_2_0_0 32 rfl rfl).symm k) = ix3 B u k :=
    funext fun a => Fin.ext (by
      match a with
      | ⟨0, _⟩ => exact lhs1_0 _ _
      | ⟨1, _⟩ => exact lhs1_1 _ _
      | ⟨2, _⟩ => exact (lhs1_2 _ _).trans hk)
  have er : dot_S8192x192x32_S8192x32x1_S8192x192x1_2_1_1_2_0_0.rhsIdx (ix3 B u z) ((ValueIdx.contrEquiv1 dot_S8192x192x32_S8192x32x1_S8192x192x1_2_1_1_2_0_0 32 rfl rfl).symm k) = ix3 B k z :=
    funext fun a => Fin.ext (by
      match a with
      | ⟨0, _⟩ => exact rhs1_0 _ _
      | ⟨1, _⟩ => exact (rhs1_1 _ _).trans hk
      | ⟨2, _⟩ => exact rhs1_2 _ _)
  rw [el, er]

end Cert.ReferenceIdeal.RefContract

end
-- ==== Proof.RefRead.lean ====
/-
  The reference's composed term read at an entry: its result [8192, 192, 3, 1] is, entry by entry, the rational curve
  point of the specification — the same recursion on the host's knot constant, the two `dot_general` contractions as
  sums over the 32 control points, and the quotient.
-/
import proofs.«139278_j36618891166097_1_alg».proof.Proof.RefOps
import proofs.«139278_j36618891166097_1_alg».proof.Proof.Spec
import proofs.«139278_j36618891166097_1_alg».proof.Proof.Layout
import proofs.«139278_j36618891166097_1_alg».proof.Proof.RefContract
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx Cert.Spline

/-! ## The host's re-layings read at an entry

The layout module's readings of `broadcast_in_dim` once more, each saying which ONE entry of the operand an entry of the
result is; the statements are the same, with the axis map not part of what a rewrite matches on. -/

section Relay
variable {α : Type}

/-- A row [1, 1, n] laid into [a, b, n]: entry `(p, q, j)` is the row's entry `j`. -/
theorem bid_11n_abn {a b n : Nat} (x : (⟨3, ![1, 1, n]⟩ : Shape).Idx → α)
    (h : (⟨3, ![1, 1, n]⟩ : Shape).BroadcastsInDim ⟨3, ![a, b, n]⟩ ![0, 1, 2]) (p : Fin a) (q : Fin b) (j : Fin n) :
    broadcastInDim ⟨3, ![a, b, n]⟩ (no_index ![0, 1, 2]) h x (ix3 p q j) = x (ix3 (0 : Fin 1) (0 : Fin 1) j) :=
  Lay.bid_11n_abn x h p q j

/-- A column [a, b, 1] laid into [a, b, n]: entry `(p, q, j)` is the column's entry `(p, q)`. -/
theorem bid_ab1_abn {a b n : Nat} (x : (⟨3, ![a, b, 1]⟩ : Shape).Idx → α)
    (h : (⟨3, ![a, b, 1]⟩ : Shape).BroadcastsInDim ⟨3, ![a, b, n]⟩ ![0, 1, 2]) (p : Fin a) (q : Fin b) (j : Fin n) :
    broadcastInDim ⟨3, ![a, b, n]⟩ (no_index ![0, 1, 2]) h x (ix3 p q j) = x (ix3 p q (0 : Fin 1)) :=
  Lay.bid_ab1_abn x h p q j

/-- A vector [n] laid into [1, 1, n]: entry `(u, v, j)` is the vector's entry `j`. -/
theorem bid_n_11n {n : Nat} (x : (⟨1, ![n]⟩ : Shape).Idx → α)
    (h : (⟨1, ![n]⟩ : Shape).BroadcastsInDim ⟨3, ![1, 1, n]⟩ ![2]) (u v : Fin 1) (j : Fin n) :
    broadcastInDim ⟨3, ![1, 1, n]⟩ (no_index ![2]) h x (ix3 u v j) = x (ix1 j) :=
  Lay.bid_n_11n x h u v j

/-- A scalar laid over any shape: every entry is the scalar. -/
theorem bid_scalar {s : Shape} (x : (⟨0, ![]⟩ : Shape).Idx → α)
    (h : (⟨0, ![]⟩ : Shape).BroadcastsInDim s ![]) (i : s.Idx) :
    broadcastInDim s (no_index ![]) h x i = x ix0 :=
  Lay.bid_scalar x h i

/-- A rank-3 array [a, b, c] laid into [a, b, c, 1]: entry `(p, q, r, z)` is the array's entry `(p, q, r)`. -/
theorem bid_abc_abc1 {a b c : Nat} (x : (⟨3, ![a, b, c]⟩ : Shape).Idx → α)
    (h : (⟨3, ![a, b, c]⟩ : Shape).BroadcastsInDim ⟨4, ![a, b, c, 1]⟩ ![0, 1, 2]) (p : Fin a) (q : Fin b) (r : Fin c)
    (z : Fin 1) :
    broadcastInDim ⟨4, ![a, b, c, 1]⟩ (no_index ![0, 1, 2]) h x (ix4 p q r z) = x (ix3 p q r) :=
  Lay.bid_abc_abc1 x h (ix4 p q r z)

end Relay

/-! ## The knot constant and the parameter -/

/-- The host's knot table is the specification's, word for word. -/
theorem lit0_eq : ∀ n : Fin 36, lit0 n = knotW n.val := by decide

/-- Entry `n` of the host's knot constant is knot `n`. -/
theorem knots_apply (n : Nat) (h : n < 36) : knotsR (F := Ideal) (ix1 (⟨n, h⟩ : Fin 36)) = K n := by
  have hpos : S36.rowMajor (ix1 (⟨n, h⟩ : Fin 36)) = (⟨n, h⟩ : Fin 36) := Fin.ext (Shape.rowMajor_val_one _)
  show Ideal.ofBits .f32 (lit0 (S36.rowMajor (ix1 (⟨n, h⟩ : Fin 36)))) = Ideal.ofBits .f32 (knotW n)
  rw [hpos, lit0_eq]

/-- The parameter array laid with a trailing unit axis reads the parameter of its row and column. -/
theorem tt_apply (ub : FVec Ideal S8192x192 .f32) (B : Fin 8192) (u : Fin 192) (z : Fin 1) :
    r_tt (F := Ideal) ub (ix3 B u z) = ub (ix2 B u) := by
  unfold r_tt
  exact Lay.bid_ab_ab1 _ _ _ _ _

/-! ## The recursion's four levels at an entry -/

/-- Level 0 at `(B, u, j)`: the indicator of the knot span `[kⱼ, kⱼ₊₁)` at the parameter. -/
theorem N0_apply (ub : FVec Ideal S8192x192 .f32) (B : Fin 8192) (u : Fin 192) (j : Fin 35) :
    r_N0 (F := Ideal) ub (ix3 B u j) = lvl0 (ub (ix2 B u)) j.val := by
  unfold r_N0
  simp only [uitofp, andi, cmpf, bid_11n_abn, bid_n_11n, bid_ab1_abn, Lay.slice1_eq, tt_apply, knots_apply,
    Nat.zero_add]
  rfl

/-- Level 1 at `(B, u, j)`. -/
theorem N1_apply (ub : FVec Ideal S8192x192 .f32) (B : Fin 8192) (u : Fin 192) (j : Fin 34) :
    r_N1 (F := Ideal) ub (ix3 B u j) = lvl1 (ub (ix2 B u)) j.val := by
  unfold r_N1
  simp only [addf, mulf, subf, Host.divf, constant, bid_11n_abn, bid_n_11n, bid_ab1_abn, bid_scalar, Lay.slice1_eq,
    Lay.slice3_last_eq, tt_apply, knots_apply, N0_apply, Nat.zero_add]
  rfl

/-- Level 2 at `(B, u, j)`. -/
theorem N2_apply (ub : FVec Ideal S8192x192 .f32) (B : Fin 8192) (u : Fin 192) (j : Fin 33) :
    r_N2 (F := Ideal) ub (ix3 B u j) = lvl2 (ub (ix2 B u)) j.val := by
  unfold r_N2
  simp only [addf, mulf, subf, Host.divf, constant, bid_11n_abn, bid_n_11n, bid_ab1_abn, bid_scalar, Lay.slice1_eq,
    Lay.slice3_last_eq, tt_apply, knots_apply, N1_apply, Nat.zero_add]
  rfl

/-- Level 3 at `(B, u, j)`. -/
theorem N3_apply (ub : FVec Ideal S8192x192 .f32) (B : Fin 8192) (u : Fin 192) (j : Fin 32) :
    r_N3 (F := Ideal) ub (ix3 B u j) = lvl3 (ub (ix2 B u)) j.val := by
  unfold r_N3
  simp only [addf, mulf, subf, Host.divf, constant, bid_11n_abn, bid_n_11n, bid_ab1_abn, bid_scalar, Lay.slice1_eq,
    Lay.slice3_last_eq, tt_apply, knots_apply, N2_apply, Nat.zero_add]
  rfl

/-! ## The quotient of the two contractions -/

/-- The reference's result at `(B, u, d, z)`: the curve point's coordinate `d` of batch row `B` at its parameter `u`. -/
theorem out_apply (cp : FVec Ideal S8192x32x3 .f32) (w : FVec Ideal S8192x32x1 .f32) (ub : FVec Ideal S8192x192 .f32)
    (B : Fin 8192) (u : Fin 192) (d : Fin 3) (z : Fin 1) :
    r_out (F := Ideal) cp w ub (ix4 B u d z)
      = row (ub (ix2 B u)) (fun k => cp (ix3 B k d)) (fun k => w (ix3 B k (0 : Fin 1))) := by
  unfold r_out
  simp only [bid_abc_abc1, Host.divf, addf, mulf, constant, bid_ab1_abn, bid_scalar, RefContract.dot3_apply,
    RefContract.dot1_apply, N3_apply]
  rfl

/-- The reference's result is the specification's function of the three arrays. -/
theorem out_eq (cp : FVec Ideal S8192x32x3 .f32) (w : FVec Ideal S8192x32x1 .f32) (ub : FVec Ideal S8192x192 .f32) :
    r_out (F := Ideal) cp w ub = G cp w ub := by
  funext i
  obtain ⟨B, u, d, z, rfl⟩ : ∃ (B : Fin 8192) (u : Fin 192) (d : Fin 3) (z : Fin 1), i = ix4 B u d z :=
    ⟨i 0, i 1, i 2, i 3, eq_ix4 i⟩
  exact out_apply cp w ub B u d z

end Cert.ReferenceIdeal.RefRead

end
-- ==== Proof.lean ====
/-
  The certificate of the rational cubic B-spline kernel against its jnp reference.

  Both programs evaluate, for every batch row b, parameter u and coordinate d,
      ( ∑ₖ N³ₖ(t) · (cp[b,k,d] · w[b,k]) ) / ( ∑ₖ N³ₖ(t) · w[b,k] + ε ),   t = ub[b,u],
  with N³ the cubic basis values of the Cox–de Boor recursion over the 36-knot clamped vector (Proof/Spec.lean). The
  kernel does it tile by tile, 256 batch rows a grid point, reading the knots from a row the host lays out; the
  reference on whole arrays. On the extended reals the two are the same function entry by entry: the recursion's
  operations are applied in the same order on both sides, a change of float format is the identity, and each
  contraction over the 32 control points is the same finite sum. No finiteness of the inputs is used.

  Kernel side: the generated frame's run gives every block the grid writes back; Proof/KernelPay.lean reads the stored
  value at an entry, Proof/KernelValue.lean the blocks' tiling of the result array and the program's last re-laying.
  Reference side: Proof/RefRun.lean reads the program's run back as a composed term, Proof/RefRead.lean that term at an
  entry. The idealization rewrote no operation, so `preserves` is trivial.
-/
import proofs.«139278_j36618891166097_1_alg».proof.Defs
import proofs.«139278_j36618891166097_1_alg».proof.Proof.Gen.Kernel
import proofs.«139278_j36618891166097_1_alg».proof.Proof.Gen.Kernel.Skeleton
import proofs.«139278_j36618891166097_1_alg».proof.Proof.Gen.Kernel.Launch
import proofs.«139278_j36618891166097_1_alg».proof.Proof.Gen.Kernel.Points
import proofs.«139278_j36618891166097_1_alg».proof.Proof.Gen.Kernel.Frame
import proofs.«139278_j36618891166097_1_alg».proof.Proof.Gen.KernelIdeal
import proofs.«139278_j36618891166097_1_alg».proof.Proof.Gen.KernelIdeal.Skeleton
import proofs.«139278_j36618891166097_1_alg».proof.Proof.Gen.KernelIdeal.Launch
import proofs.«139278_j36618891166097_1_alg».proof.Proof.Gen.KernelIdeal.Points
import proofs.«139278_j36618891166097_1_alg».proof.Proof.Gen.KernelIdeal.Frame
import proofs.«139278_j36618891166097_1_alg».proof.Proof.Gen.ReferenceIdeal
import proofs.«139278_j36618891166097_1_alg».proof.Proof.Gen.Pre_finite_inputs
import proofs.«139278_j36618891166097_1_alg».proof.Proof.KernelPay
import proofs.«139278_j36618891166097_1_alg».proof.Proof.KernelValue
import proofs.«139278_j36618891166097_1_alg».proof.Proof.RefRun
import proofs.«139278_j36618891166097_1_alg».proof.Proof.RefRead
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run read back, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end at the specification's function `Spline.G` of the argument arrays, which agree. -/
theorem algebraic : Cert.algebraic_KernelIdeal_ReferenceIdeal := by
  intro m ρ m' ρ' _ hagree
  refine ⟨_, Cert.KernelIdeal.KValue.run m ρ Cert.KernelIdeal.Pay.pay_apply, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.out_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
